-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S100x100 : Shape := ⟨2, ![100, 100]⟩
abbrev S131072 : Shape := ⟨1, ![131072]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S100x100 : S_.BroadcastsInDim S100x100 (![] : Fin 0 → Fin S100x100.rank)
  reducesTo_S100x100_S_d0_1 : S100x100.ReducesTo [0, 1] S_
  bcast_S_S131072 : S_.BroadcastsInDim S131072 (![] : Fin 0 → Fin S131072.rank)
  reducesTo_S131072_S_d0 : S131072.ReducesTo [0] S_

variable [Facts]

def fn_part1 {F : FTy → Type} [FloatOps F] (main_arg4 : IVec S131072 32) (main_v15 : IVec S_ 1) (main_c_5 : IVec S_ 32) : IVec S_ 1 :=
  let main_v16 : IVec S131072 32 := broadcastInDim S131072 ![] bcast_S_S131072 main_c_5
  let main_v17 : IVec S131072 1 := cmpi .sge main_arg4 main_v16
  let main_c_6 : IVec S_ 32 := constantI S_ 32 131072#32
  let main_v18 : IVec S131072 32 := broadcastInDim S131072 ![] bcast_S_S131072 main_c_6
  let main_v19 : IVec S131072 1 := cmpi .slt main_arg4 main_v18
  let main_v20 : IVec S131072 1 := andi main_v17 main_v19
  let main_c_7 : IVec S_ 1 := constantI S_ 1 1#1
  let main_v21 : IVec S_ 1 := (fun x v => Host.reduce IntOp.andi x v reducesTo_S131072_S_d0 h_S_) main_v20 main_c_7
  let main_v22 : IVec S_ 1 := andi main_v15 main_v21
  main_v22

def fn {F : FTy → Type} [FloatOps F] (main_arg0 : FVec F S131072x256 .f32) (main_arg1 : FVec F S100x100 .f32) (main_arg2 : IVec S131072 32) (main_arg3 : IVec S131072 32) (main_arg4 : IVec S131072 32) (main_arg5 : IVec S131072 1) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S100x100 .f32 := Host.absf main_arg1
  let main_cst_0 : FVec F S_ .f32 := constant S_ .f32 0x7F800000#32
  let main_v5 : FVec F S100x100 .f32 := broadcastInDim S100x100 ![] bcast_S_S100x100 main_cst_0
  let main_v6 : IVec S100x100 1 := cmpf .olt main_v4 main_v5
  let main_c_1 : IVec S_ 1 := constantI S_ 1 1#1
  let main_v7 : IVec S_ 1 := (fun x v => Host.reduce IntOp.andi x v reducesTo_S100x100_S_d0_1 h_S_) main_v6 main_c_1
  let main_v8 : IVec S_ 1 := andi main_v3 main_v7
  let main_c_2 : IVec S_ 32 := constantI S_ 32 0#32
  let main_v9 : IVec S131072 32 := broadcastInDim S131072 ![] bcast_S_S131072 main_c_2
  let main_v10 : IVec S131072 1 := cmpi .sge main_arg3 main_v9
  let main_c_3 : IVec S_ 32 := constantI S_ 32 131072#32
  let main_v11 : IVec S131072 32 := broadcastInDim S131072 ![] bcast_S_S131072 main_c_3
  let main_v12 : IVec S131072 1 := cmpi .slt main_arg3 main_v11
  let main_v13 : IVec S131072 1 := andi main_v10 main_v12
  let main_c_4 : IVec S_ 1 := constantI S_ 1 1#1
  let main_v14 : IVec S_ 1 := (fun x v => Host.reduce IntOp.andi x v reducesTo_S131072_S_d0 h_S_) main_v13 main_c_4
  let main_v15 : IVec S_ 1 := andi main_v8 main_v14
  let main_c_5 : IVec S_ 32 := constantI S_ 32 0#32
  fn_part1 (F := F) main_arg4 main_v15 main_c_5
-- ==== Kernel.lean ====
abbrev S131072x256 : Shape := ⟨2, ![131072, 256]⟩
abbrev S100x100 : Shape := ⟨2, ![100, 100]⟩
abbrev S131072 : Shape := ⟨1, ![131072]⟩
abbrev S_ : Shape := ⟨0, ![]⟩
abbrev S131072x1 : Shape := ⟨2, ![131072, 1]⟩
abbrev S1 : Shape := ⟨1, ![1]⟩
abbrev S1x1 : Shape := ⟨2, ![1, 1]⟩
abbrev S131072x2 : Shape := ⟨2, ![131072, 2]⟩
abbrev S16x128 : Shape := ⟨2, ![16, 128]⟩
abbrev S2048x256 : Shape := ⟨2, ![2048, 256]⟩
abbrev S2048x1 : Shape := ⟨2, ![2048, 1]⟩
abbrev S8x128 : Shape := ⟨2, ![8, 128]⟩
abbrev S2048 : Shape := ⟨1, ![2048]⟩

abbrev nBuf : Space → Nat
  | .hbm => 110
  | .vmem => 16
  | .smem => 0
  | _ => 0

abbrev bufTy : (tb : Table) → Fin (tcTables nBuf tb) → BufTy
  | .hbm, ⟨0, _⟩ => ⟨S131072x256, .f32⟩
  | .hbm, ⟨1, _⟩ => ⟨S100x100, .f32⟩
  | .hbm, ⟨2, _⟩ => ⟨S131072, .i32⟩
  | .hbm, ⟨3, _⟩ => ⟨S131072, .i32⟩
  | .hbm, ⟨4, _⟩ => ⟨S131072, .i32⟩
  | .hbm, ⟨5, _⟩ => ⟨S131072, .i1⟩
  | .hbm, ⟨6, _⟩ => ⟨S_, .i32⟩
  | .hbm, ⟨7, _⟩ => ⟨S131072, .i32⟩
  | .hbm, ⟨8, _⟩ => ⟨S131072, .i1⟩
  | .hbm, ⟨9, _⟩ => ⟨S_, .i32⟩
  | .hbm, ⟨10, _⟩ => ⟨S131072, .i32⟩
  | .hbm, ⟨11, _⟩ => ⟨S131072, .i32⟩
  | .hbm, ⟨12, _⟩ => ⟨S131072, .i32⟩
  | .hbm, ⟨13, _⟩ => ⟨S131072x1, .i32⟩
  | .hbm, ⟨14, _⟩ => ⟨S1, .i32⟩
  | .hbm, ⟨15, _⟩ => ⟨S_, .i32⟩
  | .hbm, ⟨16, _⟩ => ⟨S131072x1, .i32⟩
  | .hbm, ⟨17, _⟩ => ⟨S131072x1, .i1⟩
  | .hbm, ⟨18, _⟩ => ⟨S1x1, .i32⟩
  | .hbm, ⟨19, _⟩ => ⟨S131072x1, .i32⟩
  | .hbm, ⟨20, _⟩ => ⟨S131072x1, .i1⟩
  | .hbm, ⟨21, _⟩ => ⟨S131072x1, .i1⟩
  | .hbm, ⟨22, _⟩ => ⟨S_, .i1⟩
  | .hbm, ⟨23, _⟩ => ⟨S131072, .i1⟩
  | .hbm, ⟨24, _⟩ => ⟨S131072x256, .f32⟩
  | .hbm, ⟨25, _⟩ => ⟨S131072x256, .i1⟩
  | .hbm, ⟨26, _⟩ => ⟨S_, .f32⟩
  | .hbm, ⟨27, _⟩ => ⟨S131072x256, .f32⟩
  | .hbm, ⟨28, _⟩ => ⟨S131072x256, .f32⟩
  | .hbm, ⟨29, _⟩ => ⟨S_, .i32⟩
  | .hbm, ⟨30, _⟩ => ⟨S131072, .i32⟩
  | .hbm, ⟨31, _⟩ => ⟨S131072, .i1⟩
  | .hbm, ⟨32, _⟩ => ⟨S_, .i32⟩
  | .hbm, ⟨33, _⟩ => ⟨S131072, .i32⟩
  | .hbm, ⟨34, _⟩ => ⟨S131072, .i32⟩
  | .hbm, ⟨35, _⟩ => ⟨S131072, .i32⟩
  | .hbm, ⟨36, _⟩ => ⟨S131072x1, .i32⟩
  | .hbm, ⟨37, _⟩ => ⟨S1, .i32⟩
  | .hbm, ⟨38, _⟩ => ⟨S_, .i32⟩
  | .hbm, ⟨39, _⟩ => ⟨S131072x1, .i32⟩
  | .hbm, ⟨40, _⟩ => ⟨S131072x1, .i1⟩
  | .hbm, ⟨41, _⟩ => ⟨S1x1, .i32⟩
  | .hbm, ⟨42, _⟩ => ⟨S131072x1, .i32⟩
  | .hbm, ⟨43, _⟩ => ⟨S131072x1, .i1⟩
  | .hbm, ⟨44, _⟩ => ⟨S131072x1, .i1⟩
  | .hbm, ⟨45, _⟩ => ⟨S_, .i1⟩
  | .hbm, ⟨46, _⟩ => ⟨S131072, .i1⟩
  | .hbm, ⟨47, _⟩ => ⟨S131072x256, .f32⟩
  | .hbm, ⟨48, _⟩ => ⟨S131072x256, .i1⟩
  | .hbm, ⟨49, _⟩ => ⟨S_, .f32⟩
  | .hbm, ⟨50, _⟩ => ⟨S131072x256, .f32⟩
  | .hbm, ⟨51, _⟩ => ⟨S131072x256, .f32⟩
  | .hbm, ⟨52, _⟩ => ⟨S_, .i32⟩
  | .hbm, ⟨53, _⟩ => ⟨S131072, .i32⟩
  | .hbm, ⟨54, _⟩ => ⟨S131072, .i1⟩
  | .hbm, ⟨55, _⟩ => ⟨S_, .i32⟩
  | .hbm, ⟨56, _⟩ => ⟨S131072, .i32⟩
  | .hbm, ⟨57, _⟩ => ⟨S131072, .i32⟩
  | .hbm, ⟨58, _⟩ => ⟨S131072, .i32⟩
  | .hbm, ⟨59, _⟩ => ⟨S131072x1, .i32⟩
  | .hbm, ⟨60, _⟩ => ⟨S1, .i32⟩
  | .hbm, ⟨61, _⟩ => ⟨S_, .i32⟩
  | .hbm, ⟨62, _⟩ => ⟨S131072x1, .i32⟩
  | .hbm, ⟨63, _⟩ => ⟨S131072x1, .i1⟩
  | .hbm, ⟨64, _⟩ => ⟨S1x1, .i32⟩
  | .hbm, ⟨65, _⟩ => ⟨S131072x1, .i32⟩
  | .hbm, ⟨66, _⟩ => ⟨S131072x1, .i1⟩
  | .hbm, ⟨67, _⟩ => ⟨S131072x1, .i1⟩
  | .hbm, ⟨68, _⟩ => ⟨S_, .i1⟩
  | .hbm, ⟨69, _⟩ => ⟨S131072, .i1⟩
  | .hbm, ⟨70, _⟩ => ⟨S131072, .i32⟩
  | .hbm, ⟨71, _⟩ => ⟨S_, .i32⟩
  | .hbm, ⟨72, _⟩ => ⟨S131072, .i32⟩
  | .hbm, ⟨73, _⟩ => ⟨S131072, .i32⟩
  | .hbm, ⟨74, _⟩ => ⟨S_, .i32⟩
  | .hbm, ⟨75, _⟩ => ⟨S131072, .i32⟩
  | .hbm, ⟨76, _⟩ => ⟨S131072, .i1⟩
  | .hbm, ⟨77, _⟩ => ⟨S_, .i32⟩
  | .hbm, ⟨78, _⟩ => ⟨S131072, .i32⟩
  | .hbm, ⟨79, _⟩ => ⟨S131072, .i32⟩
  | .hbm, ⟨80, _⟩ => ⟨S131072, .i32⟩
  | .hbm, ⟨81, _⟩ => ⟨S_, .i32⟩
  | .hbm, ⟨82, _⟩ => ⟨S131072, .i32⟩
  | .hbm, ⟨83, _⟩ => ⟨S131072, .i1⟩
  | .hbm, ⟨84, _⟩ => ⟨S_, .i32⟩
  | .hbm, ⟨85, _⟩ => ⟨S131072, .i32⟩
  | .hbm, ⟨86, _⟩ => ⟨S131072, .i32⟩
  | .hbm, ⟨87, _⟩ => ⟨S131072, .i32⟩
  | .hbm, ⟨88, _⟩ => ⟨S131072x1, .i32⟩
  | .hbm, ⟨89, _⟩ => ⟨S131072x1, .i32⟩
  | .hbm, ⟨90, _⟩ => ⟨S131072x2, .i32⟩
  | .hbm, ⟨91, _⟩ => ⟨S131072, .f32⟩
  | .hbm, ⟨92, _⟩ => ⟨S131072, .f32⟩
  | .hbm, ⟨93, _⟩ => ⟨S131072x1, .f32⟩
  | .hbm, ⟨94, _⟩ => ⟨S131072x1, .f32⟩
  | .hbm, ⟨95, _⟩ => ⟨S16x128, .f32⟩
  | .hbm, ⟨96, _⟩ => ⟨S16x128, .f32⟩
  | .hbm, ⟨97, _⟩ => ⟨S1x1, .f32⟩
  | .hbm, ⟨98, _⟩ => ⟨S_, .f32⟩
  | .hbm, ⟨99, _⟩ => ⟨S1x1, .f32⟩
  | .hbm, ⟨100, _⟩ => ⟨S_, .f32⟩
  | .hbm, ⟨101, _⟩ => ⟨S_, .f32⟩
  | .hbm, ⟨102, _⟩ => ⟨S1x1, .f32⟩
  | .hbm, ⟨103, _⟩ => ⟨S_, .f32⟩
  | .hbm, ⟨104, _⟩ => ⟨S1x1, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x1, .f32⟩
  | .local _ .vmem, ⟨7, _⟩ => ⟨S2048x1, .f32⟩
  | .local _ .vmem, ⟨8, _⟩ => ⟨S2048x1, .f32⟩
  | .local _ .vmem, ⟨9, _⟩ => ⟨S2048x1, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | .local _ .vmem, ⟨14, _⟩ => ⟨S1x1, .f32⟩
  | .local _ .vmem, ⟨15, _⟩ => ⟨S1x1, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v1 : Ref sig .tc := ⟨.hbm, 51, rfl⟩
abbrev main_call2_c : Ref sig .tc := ⟨.hbm, 52, rfl⟩
abbrev main_call2_v0 : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_c_1 : Ref sig .tc := ⟨.hbm, 60, rfl⟩
abbrev main_call2_c_2 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_c_3 : Ref sig .tc := ⟨.hbm, 68, rfl⟩
abbrev main_call2_v12 : Ref sig .tc := ⟨.hbm, 69, rfl⟩
abbrev main_call2_v13 : Ref sig .tc := ⟨.hbm, 70, rfl⟩
abbrev main_call2_c_4 : Ref sig .tc := ⟨.hbm, 71, rfl⟩
abbrev main_call2_v14 : Ref sig .tc := ⟨.hbm, 72, rfl⟩
abbrev main_v2 : Ref sig .tc := ⟨.hbm, 73, rfl⟩
abbrev main_c : Ref sig .tc := ⟨.hbm, 74, rfl⟩
abbrev main_v3 : Ref sig .tc := ⟨.hbm, 75, rfl⟩
abbrev main_v4 : Ref sig .tc := ⟨.hbm, 76, rfl⟩
abbrev main_c_0 : Ref sig .tc := ⟨.hbm, 77, rfl⟩
abbrev main_v5 : Ref sig .tc := ⟨.hbm, 78, rfl⟩
abbrev main_v6 : Ref sig .tc := ⟨.hbm, 79, rfl⟩
abbrev main_v7 : Ref sig .tc := ⟨.hbm, 80, rfl⟩
abbrev main_c_1 : Ref sig .tc := ⟨.hbm, 81, rfl⟩
abbrev main_v8 : Ref sig .tc := ⟨.hbm, 82, rfl⟩
abbrev main_v9 : Ref sig .tc := ⟨.hbm, 83, rfl⟩
abbrev main_c_2 : Ref sig .tc := ⟨.hbm, 84, rfl⟩
abbrev main_v10 : Ref sig .tc := ⟨.hbm, 85, rfl⟩
abbrev main_v11 : Ref sig .tc := ⟨.hbm, 86, rfl⟩
abbrev main_v12 : Ref sig .tc := ⟨.hbm, 87, rfl⟩
abbrev main_v13 : Ref sig .tc := ⟨.hbm, 88, rfl⟩
abbrev main_v14 : Ref sig .tc := ⟨.hbm, 89, rfl⟩
abbrev main_v15 : Ref sig .tc := ⟨.hbm, 90, rfl⟩
abbrev main_v16 : Ref sig .tc := ⟨.hbm, 91, rfl⟩
abbrev main_v17 : Ref sig .tc := ⟨.hbm, 92, rfl⟩
abbrev main_v18 : Ref sig .tc := ⟨.hbm, 93, rfl⟩
abbrev main_v19 : Ref sig .tc := ⟨.hbm, 94, rfl⟩
abbrev main_v20_0 : Ref sig .tc := ⟨.hbm, 95, rfl⟩
abbrev main_v20_1 : Ref sig .tc := ⟨.hbm, 96, rfl⟩
abbrev main_v21 : Ref sig .tc := ⟨.hbm, 97, rfl⟩
abbrev main_v22 : Ref sig .tc := ⟨.hbm, 98, rfl⟩
abbrev main_v23 : Ref sig .tc := ⟨.hbm, 99, rfl⟩
abbrev main_v24 : Ref sig .tc := ⟨.hbm, 100, rfl⟩
abbrev main_v25 : Ref sig .tc := ⟨.hbm, 101, rfl⟩
abbrev main_v26 : Ref sig .tc := ⟨.hbm, 102, rfl⟩
abbrev main_v27 : Ref sig .tc := ⟨.hbm, 103, rfl⟩
abbrev main_v28 : Ref sig .tc := ⟨.hbm, 104, rfl⟩
abbrev main_v29 : Ref sig .tc := ⟨.hbm, 105, rfl⟩
abbrev main_v30 : Ref sig .tc := ⟨.hbm, 106, rfl⟩
abbrev main_cst : Ref sig .tc := ⟨.hbm, 107, rfl⟩
abbrev main_v31 : Ref sig .tc := ⟨.hbm, 108, rfl⟩
abbrev main_v32 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v41 : BitVec 1 := Scalar.cmpi .eq arg1 c31_i32
  let v42 : BitVec 32 := Scalar.extui v41
  let c0_i32_22 : BitVec 32 := 0#32
  let v43 : BitVec 1 := Scalar.cmpi .ne v42 c0_i32_22
  v43

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  reducesTo_S131072x1_S131072_d1 : S131072x1.ReducesTo [1] S131072
  h_S_ : 0 < S_.numel
  bcast_S131072_S131072x256_0 : S131072.BroadcastsInDim S131072x256 (![0] : Fin 1 → Fin S131072x256.rank)
  bcast_S_S131072x256 : S_.BroadcastsInDim S131072x256 (![] : Fin 0 → Fin S131072x256.rank)
  concatenates_S131072x1_S131072x1_S131072x2_d1 : Shape.Concatenates [S131072x1, S131072x1] S131072x2 1
  shapeCasts_S131072_S131072x1 : S131072.ShapeCasts S131072x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  reduces_S2048x256_S2048 : S2048x256.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  reduces_S2048x1_S1 : S2048x1.Reduces [0] S1
  shapeCasts_S1_S1x1 : S1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  slices_S16x128_S1x1_0_0 : S16x128.Slices ![0, 0] S1x1
  shapeCasts_S1x1_S_ : S1x1.ShapeCasts S_
  slices_S16x128_S1x1_8_0 : S16x128.Slices ![8, 0] S1x1
  gather_S131072x256_S131072x1_S131072x256_1_0_n_n_0_1_1256_wf : GatherDims.WF S131072x256 S131072x1 S131072x256 [1] [0] [] [0] [] 1 ![1, 256]
  gather_S131072_S131072x1_S131072_n_0_n_n_0_1_1_wf : GatherDims.WF S131072 S131072x1 S131072 [] [0] [] [0] [] 1 ![1]
  gather_S100x100_S131072x2_S131072_n_01_n_n_01_1_11_wf : GatherDims.WF S100x100 S131072x2 S131072 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S131072x256.size a
  hwx0_0 : ∀ i : grid0.Coords, EltTy.bits .f32 = 32 ∨ (Rect.block (s := S131072x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S131072x256.size a
  hwx0_1 : ∀ i : grid0.Coords, EltTy.bits .f32 = 32 ∨ (Rect.block (s := S131072x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S131072x256.size a
  hwx0_2 : ∀ i : grid0.Coords, EltTy.bits .f32 = 32 ∨ (Rect.block (s := S131072x256) S2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S131072x1.size a
  hwx0_3 : ∀ i : grid0.Coords, EltTy.bits .f32 = 32 ∨ (Rect.block (s := S131072x1) S2048x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S131072x1.size a
  hwx0_4 : ∀ i : grid0.Coords, EltTy.bits .f32 = 32 ∨ (Rect.block (s := S131072x1) S2048x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S16x128.size a
  hwx0_5 : ∀ i : grid0.Coords, EltTy.bits .f32 = 32 ∨ (Rect.block (s := S16x128) S8x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x128.size a ≤ S16x128.size a
  hwx0_6 : ∀ i : grid0.Coords, EltTy.bits .f32 = 32 ∨ (Rect.block (s := S16x128) S8x128.size (cc0_transform_6 i) (hinb0_6 i)).WholeWords (EltTy.packing .f32)

variable [Facts₀]

def gather_S131072x256_S131072x1_S131072x256_1_0_n_n_0_1_1256 : GatherDims S131072x256 S131072x1 S131072x256 where
  offsetDims := [1]
  collapsedSliceDims := [0]
  operandBatchingDims := []
  startIndicesBatchingDims := []
  startIndexMap := [0]
  indexVectorDim := 1
  sliceSizes := ![1, 256]
  wf := gather_S131072x256_S131072x1_S131072x256_1_0_n_n_0_1_1256_wf
def gather_S131072_S131072x1_S131072_n_0_n_n_0_1_1 : GatherDims S131072 S131072x1 S131072 where
  offsetDims := []
  collapsedSliceDims := [0]
  operandBatchingDims := []
  startIndicesBatchingDims := []
  startIndexMap := [0]
  indexVectorDim := 1
  sliceSizes := ![1]
  wf := gather_S131072_S131072x1_S131072_n_0_n_n_0_1_1_wf
def gather_S100x100_S131072x2_S131072_n_01_n_n_01_1_11 : GatherDims S100x100 S131072x2 S131072 where
  offsetDims := []
  collapsedSliceDims := [0, 1]
  operandBatchingDims := []
  startIndicesBatchingDims := []
  startIndexMap := [0, 1]
  indexVectorDim := 1
  sliceSizes := ![1, 1]
  wf := gather_S100x100_S131072x2_S131072_n_01_n_n_01_1_11_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S2048x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19) S2048x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v20_0) S8x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v20_1) S8x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S131072x256 : Shape := ⟨2, ![131072, 256]⟩
abbrev S100x100 : Shape := ⟨2, ![100, 100]⟩
abbrev S131072 : Shape := ⟨1, ![131072]⟩
abbrev S_ : Shape := ⟨0, ![]⟩
abbrev S131072x1 : Shape := ⟨2, ![131072, 1]⟩
abbrev S131072x2 : Shape := ⟨2, ![131072, 2]⟩

abbrev nBuf : Space → Nat
  | .hbm => 75
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S100x100, .f32⟩
  | .hbm, ⟨2, _⟩ => ⟨S131072, .i32⟩
  | .hbm, ⟨3, _⟩ => ⟨S131072, .i32⟩
  | .hbm, ⟨4, _⟩ => ⟨S131072, .i32⟩
  | .hbm, ⟨5, _⟩ => ⟨S131072, .i1⟩
  | .hbm, ⟨6, _⟩ => ⟨S_, .i32⟩
  | .hbm, ⟨7, _⟩ => ⟨S131072, .i32⟩
  | .hbm, ⟨8, _⟩ => ⟨S131072, .i1⟩
  | .hbm, ⟨9, _⟩ => ⟨S_, .i32⟩
  | .hbm, ⟨10, _⟩ => ⟨S131072, .i32⟩
  | .hbm, ⟨11, _⟩ => ⟨S131072, .i32⟩
  | .hbm, ⟨12, _⟩ => ⟨S131072, .i32⟩
  | .hbm, ⟨13, _⟩ => ⟨S131072x1, .i32⟩
  | .hbm, ⟨14, _⟩ => ⟨S131072x256, .f32⟩
  | .hbm, ⟨15, _⟩ => ⟨S_, .i32⟩
  | .hbm, ⟨16, _⟩ => ⟨S131072, .i32⟩
  | .hbm, ⟨17, _⟩ => ⟨S131072, .i1⟩
  | .hbm, ⟨18, _⟩ => ⟨S_, .i32⟩
  | .hbm, ⟨19, _⟩ => ⟨S131072, .i32⟩
  | .hbm, ⟨20, _⟩ => ⟨S131072, .i32⟩
  | .hbm, ⟨21, _⟩ => ⟨S131072, .i32⟩
  | .hbm, ⟨22, _⟩ => ⟨S131072x1, .i32⟩
  | .hbm, ⟨23, _⟩ => ⟨S131072x256, .f32⟩
  | .hbm, ⟨24, _⟩ => ⟨S_, .i32⟩
  | .hbm, ⟨25, _⟩ => ⟨S131072, .i32⟩
  | .hbm, ⟨26, _⟩ => ⟨S131072, .i1⟩
  | .hbm, ⟨27, _⟩ => ⟨S_, .i32⟩
  | .hbm, ⟨28, _⟩ => ⟨S131072, .i32⟩
  | .hbm, ⟨29, _⟩ => ⟨S131072, .i32⟩
  | .hbm, ⟨30, _⟩ => ⟨S131072, .i32⟩
  | .hbm, ⟨31, _⟩ => ⟨S131072x1, .i32⟩
  | .hbm, ⟨32, _⟩ => ⟨S131072, .i32⟩
  | .hbm, ⟨33, _⟩ => ⟨S_, .i32⟩
  | .hbm, ⟨34, _⟩ => ⟨S131072, .i32⟩
  | .hbm, ⟨35, _⟩ => ⟨S131072, .i1⟩
  | .hbm, ⟨36, _⟩ => ⟨S_, .i32⟩
  | .hbm, ⟨37, _⟩ => ⟨S131072, .i32⟩
  | .hbm, ⟨38, _⟩ => ⟨S131072, .i32⟩
  | .hbm, ⟨39, _⟩ => ⟨S131072, .i32⟩
  | .hbm, ⟨40, _⟩ => ⟨S_, .i32⟩
  | .hbm, ⟨41, _⟩ => ⟨S131072, .i32⟩
  | .hbm, ⟨42, _⟩ => ⟨S131072, .i1⟩
  | .hbm, ⟨43, _⟩ => ⟨S_, .i32⟩
  | .hbm, ⟨44, _⟩ => ⟨S131072, .i32⟩
  | .hbm, ⟨45, _⟩ => ⟨S131072, .i32⟩
  | .hbm, ⟨46, _⟩ => ⟨S131072, .i32⟩
  | .hbm, ⟨47, _⟩ => ⟨S131072x1, .i32⟩
  | .hbm, ⟨48, _⟩ => ⟨S131072x1, .i32⟩
  | .hbm, ⟨49, _⟩ => ⟨S131072x2, .i32⟩
  | .hbm, ⟨50, _⟩ => ⟨S131072, .f32⟩
  | .hbm, ⟨51, _⟩ => ⟨S131072x256, .f32⟩
  | .hbm, ⟨52, _⟩ => ⟨S131072x256, .f32⟩
  | .hbm, ⟨53, _⟩ => ⟨S_, .f32⟩
  | .hbm, ⟨54, _⟩ => ⟨S131072, .f32⟩
  | .hbm, ⟨55, _⟩ => ⟨S131072, .f32⟩
  | .hbm, ⟨56, _⟩ => ⟨S131072x256, .f32⟩
  | .hbm, ⟨57, _⟩ => ⟨S131072x256, .f32⟩
  | .hbm, ⟨58, _⟩ => ⟨S_, .f32⟩
  | .hbm, ⟨59, _⟩ => ⟨S131072, .f32⟩
  | .hbm, ⟨60, _⟩ => ⟨S131072, .f32⟩
  | .hbm, ⟨61, _⟩ => ⟨S131072, .f32⟩
  | .hbm, ⟨62, _⟩ => ⟨S131072, .f32⟩
  | .hbm, ⟨63, _⟩ => ⟨S_, .f32⟩
  | .hbm, ⟨64, _⟩ => ⟨S131072, .f32⟩
  | .hbm, ⟨65, _⟩ => ⟨S131072, .f32⟩
  | .hbm, ⟨66, _⟩ => ⟨S131072, .f32⟩
  | .hbm, ⟨67, _⟩ => ⟨S131072, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_v22 : Ref sig .tc := ⟨.hbm, 35, rfl⟩
abbrev main_c_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_7 : Ref sig .tc := ⟨.hbm, 40, rfl⟩
abbrev main_v26 : Ref sig .tc := ⟨.hbm, 41, rfl⟩
abbrev main_v27 : Ref sig .tc := ⟨.hbm, 42, rfl⟩
abbrev main_c_8 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_11 : Ref sig .tc := ⟨.hbm, 68, rfl⟩
abbrev main_v49 : Ref sig .tc := ⟨.hbm, 69, rfl⟩
abbrev main_cst_12 : Ref sig .tc := ⟨.hbm, 70, rfl⟩
abbrev main_v50 : Ref sig .tc := ⟨.hbm, 71, rfl⟩
abbrev main_cst_13 : Ref sig .tc := ⟨.hbm, 72, rfl⟩
abbrev main_v51 : Ref sig .tc := ⟨.hbm, 73, rfl⟩
abbrev main_v52 : Ref sig .tc := ⟨.hbm, 74, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  reducesTo_S131072x256_S131072_d1 : S131072x256.ReducesTo [1] S131072
  h_S_ : 0 < S_.numel
  reducesTo_S131072_S_d0 : S131072.ReducesTo [0] S_
  gather_S131072x256_S131072x1_S131072x256_1_0_n_n_0_1_1256_wf : GatherDims.WF S131072x256 S131072x1 S131072x256 [1] [0] [] [0] [] 1 ![1, 256]
  gather_S131072_S131072x1_S131072_n_0_n_n_0_1_1_wf : GatherDims.WF S131072 S131072x1 S131072 [] [0] [] [0] [] 1 ![1]
  gather_S100x100_S131072x2_S131072_n_01_n_n_01_1_11_wf : GatherDims.WF S100x100 S131072x2 S131072 [] [0, 1] [] [0, 1] [] 1 ![1, 1]

variable [Facts₀]

def gather_S131072x256_S131072x1_S131072x256_1_0_n_n_0_1_1256 : GatherDims S131072x256 S131072x1 S131072x256 where
  offsetDims := [1]
  collapsedSliceDims := [0]
  operandBatchingDims := []
  startIndicesBatchingDims := []
  startIndexMap := [0]
  indexVectorDim := 1
  sliceSizes := ![1, 256]
  wf := gather_S131072x256_S131072x1_S131072x256_1_0_n_n_0_1_1256_wf
def gather_S131072_S131072x1_S131072_n_0_n_n_0_1_1 : GatherDims S131072 S131072x1 S131072 where
  offsetDims := []
  collapsedSliceDims := [0]
  operandBatchingDims := []
  startIndicesBatchingDims := []
  startIndexMap := [0]
  indexVectorDim := 1
  sliceSizes := ![1]
  wf := gather_S131072_S131072x1_S131072_n_0_n_n_0_1_1_wf
def gather_S100x100_S131072x2_S131072_n_01_n_n_01_1_11 : GatherDims S100x100 S131072x2 S131072 where
  offsetDims := []
  collapsedSliceDims := [0, 1]
  operandBatchingDims := []
  startIndicesBatchingDims := []
  startIndexMap := [0, 1]
  indexVectorDim := 1
  sliceSizes := ![1, 1]
  wf := gather_S100x100_S131072x2_S131072_n_01_n_n_01_1_11_wf

class Facts : Prop extends Facts₀ where

variable [Facts]
-- ==== Proof.KPieces.lean ====
/-
  What one run of the kernel's body leaves in the two carried accumulators and, at a core's last row tile, in the two
  output blocks — as the body's arithmetic applied to the blocks it loaded.

  The body keeps a running weighted-loss total and a running weight total in two one-word scratch buffers. At a core's
  first row tile it stores zero into both and then adds the tile's two sums; at every other tile it adds them to what the
  tile before left; at the last tile it also copies each total, broadcast, into the core's output block. Each buffer's
  final contents is its last covering store's value, and a load that follows a store of the same run reads that store.
-/
import proofs.«407088_j81767587381279_3_alg».proof.Proof.Gen.KernelIdeal.Frame
import Idealize.ShloMosaic.Lib.Pipeline.Value
import Idealize.ShloMosaic.Lib.ValueIdx

set_option maxRecDepth 16384

noncomputable section

namespace Cert.KernelIdeal.Pieces

open Cert.KernelIdeal Cert.KernelIdeal.Gen
open Idealize.ShloMosaic Idealize.ShloMosaic.TcCoe Idealize.ShloMosaic.Tactic Idealize.ShloMosaic.ValueIdx
open Idealize.SL Idealize.SL.Sem

variable {F : FTy → Type} [FloatOps F]

/-- Every store and load of the body is at offset zero of its whole buffer. -/
theorem hz : (![0, 0] : Fin 2 → Nat) = fun _ => 0 := funext fun a => by match a with | ⟨0, _⟩ => rfl | ⟨1, _⟩ => rfl

/-! ## A core's first row tile: both totals start from zero -/

theorem lossAcc_first (c : Dev nD) (i : grid0.Coords) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S1x1 .f32) (harg9 : arg9.IsWhole) (arg10 : Memref sig .tc .vmem S1x1 .f32) (harg10 : arg10.IsWhole) (hc0 : cond0_0 i) (hc1 : ¬cond0_1 i) (x0 : Vec F S2048x256 .f32) (x1 : Vec F S2048x256 .f32) (x2 : Vec F S2048x256 .f32) (x3 : Vec F S2048x1 .f32) (x4 : Vec F S2048x1 .f32) :
    sout0_A_0 c i arg2 harg2 arg3 harg3 arg4 harg4 arg5 harg5 arg6 harg6 arg7 harg7 arg8 harg8 arg9 harg9 arg10 harg10 hc0 hc1 x0 x1 x2 x3 x4 = k0_pay8 x0 x1 x2 x3 x4 (k0_pay4 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 )]
  unfold kernelRun0_A
  dsimp only
  sl_unfold_words
  rw [View.canon_cons_unit_zero (S := S1x1) hz, View.readCov_unit_zero (S := S1x1) _ hz]
  simp only [View.readAt_eq_ld, harg2.read_unread, harg3.read_unread, harg4.read_unread, harg5.read_unread, harg6.read_unread, harg9.read_unread, harg10.read_unread, View.ld_unit_zero (S := S2048x256) hz, View.ld_unit_zero (S := S2048x1) hz, View.ld_unit_zero (S := S1x1) hz, View.readCov_unit_zero (S := S1x1) _ hz]

theorem wAcc_first (c : Dev nD) (i : grid0.Coords) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S1x1 .f32) (harg9 : arg9.IsWhole) (arg10 : Memref sig .tc .vmem S1x1 .f32) (harg10 : arg10.IsWhole) (hc0 : cond0_0 i) (hc1 : ¬cond0_1 i) (x0 : Vec F S2048x256 .f32) (x1 : Vec F S2048x256 .f32) (x2 : Vec F S2048x256 .f32) (x3 : Vec F S2048x1 .f32) (x4 : Vec F S2048x1 .f32) :
    sout0_A_1 c i arg2 harg2 arg3 harg3 arg4 harg4 arg5 harg5 arg6 harg6 arg7 harg7 arg8 harg8 arg9 harg9 arg10 harg10 hc0 hc1 x0 x1 x2 x3 x4 = k0_pay1 (k0_pay7 x4) (k0_pay5 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4 )]
  unfold kernelRun0_A
  dsimp only
  sl_unfold_words
  rw [View.canon_cons_unit_zero (S := S1x1) hz, View.readCov_unit_zero (S := S1x1) _ hz]
  simp only [View.readAt_eq_ld, harg2.read_unread, harg3.read_unread, harg4.read_unread, harg5.read_unread, harg6.read_unread, harg9.read_unread, harg10.read_unread, View.ld_unit_zero (S := S2048x256) hz, View.ld_unit_zero (S := S2048x1) hz, View.ld_unit_zero (S := S1x1) hz, View.readCov_unit_zero (S := S1x1) _ hz]

/-! ## A middle row tile: both totals continue from what the tile before left -/

theorem lossAcc_mid (c : Dev nD) (i : grid0.Coords) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : ¬cond0_1 i) (x0 : Vec F S2048x256 .f32) (x1 : Vec F S2048x256 .f32) (x2 : Vec F S2048x256 .f32) (x3 : Vec F S2048x1 .f32) (x4 : Vec F S2048x1 .f32) (xs0 : Vec F S1x1 .f32) (xs1 : Vec F S1x1 .f32) :
    sout0_B_0 c i arg2 harg2 arg3 harg3 arg4 harg4 arg5 harg5 arg6 harg6 arg7 harg7 arg8 harg8 arg9 harg9 arg10 harg10 hc0 hc1 x0 x1 x2 x3 x4 xs0 xs1 = k0_pay8 x0 x1 x2 x3 x4 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 xs0 xs1 )]
  unfold kernelRun0_B
  dsimp only
  sl_unfold_words
  rw [View.canon_unit_zero hz]
  simp only [View.readAt_eq_ld, harg2.read_unread, harg3.read_unread, harg4.read_unread, harg5.read_unread, harg6.read_unread, harg9.read_unread, harg10.read_unread, View.ld_unit_zero (S := S2048x256) hz, View.ld_unit_zero (S := S2048x1) hz, View.ld_unit_zero (S := S1x1) hz, View.readCov_unit_zero (S := S1x1) _ hz]

theorem wAcc_mid (c : Dev nD) (i : grid0.Coords) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : ¬cond0_1 i) (x0 : Vec F S2048x256 .f32) (x1 : Vec F S2048x256 .f32) (x2 : Vec F S2048x256 .f32) (x3 : Vec F S2048x1 .f32) (x4 : Vec F S2048x1 .f32) (xs0 : Vec F S1x1 .f32) (xs1 : Vec F S1x1 .f32) :
    sout0_B_1 c i arg2 harg2 arg3 harg3 arg4 harg4 arg5 harg5 arg6 harg6 arg7 harg7 arg8 harg8 arg9 harg9 arg10 harg10 hc0 hc1 x0 x1 x2 x3 x4 xs0 xs1 = k0_pay1 (k0_pay7 x4) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 x4 xs0 xs1 )]
  unfold kernelRun0_B
  dsimp only
  sl_unfold_words
  rw [View.canon_unit_zero hz]
  simp only [View.readAt_eq_ld, harg2.read_unread, harg3.read_unread, harg4.read_unread, harg5.read_unread, harg6.read_unread, harg9.read_unread, harg10.read_unread, View.ld_unit_zero (S := S2048x256) hz, View.ld_unit_zero (S := S2048x1) hz, View.ld_unit_zero (S := S1x1) hz, View.readCov_unit_zero (S := S1x1) _ hz]

/-! ## A core's last row tile: the totals continue, and each is broadcast into the core's output block -/

theorem lossAcc_last (c : Dev nD) (i : grid0.Coords) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : cond0_1 i) (x0 : Vec F S2048x256 .f32) (x1 : Vec F S2048x256 .f32) (x2 : Vec F S2048x256 .f32) (x3 : Vec F S2048x1 .f32) (x4 : Vec F S2048x1 .f32) (xs0 : Vec F S1x1 .f32) (xs1 : Vec F S1x1 .f32) :
    sout0_C_0 c i arg2 harg2 arg3 harg3 arg4 harg4 arg5 harg5 arg6 harg6 arg7 harg7 arg8 harg8 arg9 harg9 arg10 harg10 hc0 hc1 x0 x1 x2 x3 x4 xs0 xs1 = k0_pay8 x0 x1 x2 x3 x4 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 xs0 xs1 )]
  unfold kernelRun0_C
  dsimp only
  sl_unfold_words
  rw [View.canon_unit_zero hz]
  simp only [View.readAt_eq_ld, harg2.read_unread, harg3.read_unread, harg4.read_unread, harg5.read_unread, harg6.read_unread, harg9.read_unread, harg10.read_unread, View.ld_unit_zero (S := S2048x256) hz, View.ld_unit_zero (S := S2048x1) hz, View.ld_unit_zero (S := S1x1) hz, View.readCov_unit_zero (S := S1x1) _ hz]

theorem wAcc_last (c : Dev nD) (i : grid0.Coords) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : cond0_1 i) (x0 : Vec F S2048x256 .f32) (x1 : Vec F S2048x256 .f32) (x2 : Vec F S2048x256 .f32) (x3 : Vec F S2048x1 .f32) (x4 : Vec F S2048x1 .f32) (xs0 : Vec F S1x1 .f32) (xs1 : Vec F S1x1 .f32) :
    sout0_C_1 c i arg2 harg2 arg3 harg3 arg4 harg4 arg5 harg5 arg6 harg6 arg7 harg7 arg8 harg8 arg9 harg9 arg10 harg10 hc0 hc1 x0 x1 x2 x3 x4 xs0 xs1 = k0_pay1 (k0_pay7 x4) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 x4 xs0 xs1 )]
  unfold kernelRun0_C
  dsimp only
  sl_unfold_words
  rw [View.canon_unit_zero hz]
  simp only [View.readAt_eq_ld, harg2.read_unread, harg3.read_unread, harg4.read_unread, harg5.read_unread, harg6.read_unread, harg9.read_unread, harg10.read_unread, View.ld_unit_zero (S := S2048x256) hz, View.ld_unit_zero (S := S2048x1) hz, View.ld_unit_zero (S := S1x1) hz, View.readCov_unit_zero (S := S1x1) _ hz]

theorem lossOut_last (c : Dev nD) (i : grid0.Coords) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : cond0_1 i) (x0 : Vec F S2048x256 .f32) (x1 : Vec F S2048x256 .f32) (x2 : Vec F S2048x256 .f32) (x3 : Vec F S2048x1 .f32) (x4 : Vec F S2048x1 .f32) (xs0 : Vec F S1x1 .f32) (xs1 : Vec F S1x1 .f32) :
    out0_C_5 c i arg2 harg2 arg3 harg3 arg4 harg4 arg5 harg5 arg6 harg6 arg7 harg7 arg8 harg8 arg9 harg9 arg10 harg10 hc0 hc1 x0 x1 x2 x3 x4 xs0 xs1 = k0_pay2 (k0_pay8 x0 x1 x2 x3 x4 xs0) := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 x3 x4 xs0 xs1 )]
  unfold kernelRun0_C
  dsimp only
  sl_unfold_words
  rw [View.canon_unit_zero hz]
  simp only [View.readAt_eq_ld, harg2.read_unread, harg3.read_unread, harg4.read_unread, harg5.read_unread, harg6.read_unread, harg9.read_unread, harg10.read_unread, View.ld_unit_zero (S := S2048x256) hz, View.ld_unit_zero (S := S2048x1) hz, View.ld_unit_zero (S := S1x1) hz, View.readCov_unit_zero (S := S1x1) _ hz]

theorem wOut_last (c : Dev nD) (i : grid0.Coords) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : cond0_1 i) (x0 : Vec F S2048x256 .f32) (x1 : Vec F S2048x256 .f32) (x2 : Vec F S2048x256 .f32) (x3 : Vec F S2048x1 .f32) (x4 : Vec F S2048x1 .f32) (xs0 : Vec F S1x1 .f32) (xs1 : Vec F S1x1 .f32) :
    out0_C_6 c i arg2 harg2 arg3 harg3 arg4 harg4 arg5 harg5 arg6 harg6 arg7 harg7 arg8 harg8 arg9 harg9 arg10 harg10 hc0 hc1 x0 x1 x2 x3 x4 xs0 xs1 = k0_pay3 (k0_pay1 (k0_pay7 x4) xs1) := by
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 x0 x1 x2 x3 x4 xs0 xs1 )]
  unfold kernelRun0_C
  dsimp only
  sl_unfold_words
  rw [View.canon_unit_zero hz]
  simp only [View.readAt_eq_ld, harg2.read_unread, harg3.read_unread, harg4.read_unread, harg5.read_unread, harg6.read_unread, harg9.read_unread, harg10.read_unread, View.ld_unit_zero (S := S2048x256) hz, View.ld_unit_zero (S := S2048x1) hz, View.ld_unit_zero (S := S1x1) hz, View.readCov_unit_zero (S := S1x1) _ hz]

end Cert.KernelIdeal.Pieces

end
-- ==== Proof.Spec.lean ====
/-
  The sampled triplet margin loss as one function of five arrays.

  For an anchor row `a r`, a positive row `p r` and a negative row `n r` of 256 entries each, the row's loss is
  `max (‖a r − p r‖ − ‖a r − n r‖ + mg r) 0`, the two norms Euclidean: the square root of the sum over the 256
  columns of the squared differences. With a weight `w r` per row (1 on the mined triplets, 0 elsewhere) the result
  is the weighted total of the row losses divided by `max (Σ w) 1`. Everything is stated over the extended reals,
  over any number of rows `R`: a block of 2048 rows and the whole batch of 131072 rows are two instances.

  The total over the batch is regrouped as an accumulation reads it: the batch is 64 consecutive blocks of 2048 rows,
  and the 64 block sums are added up in two runs of 32. Addition of extended reals is commutative and associative
  (at the infinities too), so the regrouping needs nothing of the summands.
-/
import Idealize.ShloMosaic.PureOps.Ideal.Laws
import Idealize.ShloMosaic.Lib.ValueIdx

noncomputable section

namespace Cert.Triplet

open Idealize.ShloMosaic Idealize.ShloMosaic.ValueIdx
open scoped BigOperators

/-- The squared Euclidean distance between row `r` of `a` and row `r` of `p`: the sum over the 256 columns of the
    squared differences. -/
def sqDist {R : ℕ} (a p : (⟨2, ![R, 256]⟩ : Shape).Idx → EReal) (r : Fin R) : EReal :=
  ∑ d : Fin 256, (a (ix2 r d) - p (ix2 r d)) * (a (ix2 r d) - p (ix2 r d))

/-- Row `r`'s loss: the distance to the positive minus the distance to the negative plus the row's margin, clamped at 0. -/
def rowLoss {R : ℕ} (a p n : (⟨2, ![R, 256]⟩ : Shape).Idx → EReal) (mg : Fin R → EReal) (r : Fin R) : EReal :=
  max (Ideal.sqrt (sqDist a p r) - Ideal.sqrt (sqDist a n r) + mg r) 0

/-- Row `r`'s weighted loss. -/
def weighted {R : ℕ} (a p n : (⟨2, ![R, 256]⟩ : Shape).Idx → EReal) (mg w : Fin R → EReal) (r : Fin R) : EReal :=
  rowLoss a p n mg r * w r

/-- The loss: the weighted total over the rows, divided by the larger of the total weight and 1 (the f32 word of 1.0,
    which both programs carry and neither evaluates). -/
def result {R : ℕ} (a p n : (⟨2, ![R, 256]⟩ : Shape).Idx → EReal) (mg w : Fin R → EReal) : EReal :=
  Ideal.div (∑ r : Fin R, weighted a p n mg w r) (max (∑ r : Fin R, w r) (Ideal.ofBits .f32 0x3F800000#32))

/-- A row function continued by 0 past the last row: what a sum indexed by natural numbers reads. -/
def onNat {R : ℕ} (f : Fin R → EReal) (k : ℕ) : EReal := if h : k < R then f ⟨k, h⟩ else 0

theorem onNat_val {R : ℕ} (f : Fin R → EReal) (r : Fin R) : onNat f r.val = f r := by
  unfold onNat; rw [dif_pos r.isLt]

/-- A sum over `n * k` consecutive naturals is the sum over `n` blocks of the sums over each block's `k` members. -/
theorem sum_blocks {M : Type*} [AddCommMonoid M] (n k : ℕ) (f : ℕ → M) :
    ∑ r : Fin (n * k), f r.val = ∑ t : Fin n, ∑ q : Fin k, f (t.val * k + q.val) := by
  rw [← Equiv.sum_comp finProdFinEquiv, Fintype.sum_prod_type]
  refine Finset.sum_congr rfl fun t _ => Finset.sum_congr rfl fun q _ => ?_
  congr 1
  show q.val + k * t.val = t.val * k + q.val
  rw [Nat.mul_comm, Nat.add_comm]

/-- The batch total, regrouped: the first 32 blocks of 2048 rows, then the next 32. -/
theorem total_eq_halves (g : ℕ → EReal) :
    ∑ r : Fin 131072, g r.val
      = (∑ s ∈ Finset.range 32, ∑ q : Fin 2048, g (s * 2048 + q.val))
        + ∑ s ∈ Finset.range 32, ∑ q : Fin 2048, g ((32 + s) * 2048 + q.val) := by
  have h := sum_blocks 64 2048 g
  rw [show ∑ t : Fin 64, ∑ q : Fin 2048, g (t.val * 2048 + q.val)
      = ∑ t ∈ Finset.range 64, ∑ q : Fin 2048, g (t * 2048 + q.val) from
        (Finset.sum_range fun t => ∑ q : Fin 2048, g (t * 2048 + q.val)).symm,
    show (64 : ℕ) = 32 + 32 from rfl, Finset.sum_range_add] at h
  exact h

/-- A row's weighted loss depends only on that row's entries: two array families that agree on row `r` of the one and
    row `r'` of the other give the same term. -/
theorem weighted_congr {R R' : ℕ} {a p n : (⟨2, ![R, 256]⟩ : Shape).Idx → EReal} {mg w : Fin R → EReal}
    {a' p' n' : (⟨2, ![R', 256]⟩ : Shape).Idx → EReal} {mg' w' : Fin R' → EReal} {r : Fin R} {r' : Fin R'}
    (ha : ∀ d, a (ix2 r d) = a' (ix2 r' d)) (hp : ∀ d, p (ix2 r d) = p' (ix2 r' d))
    (hn : ∀ d, n (ix2 r d) = n' (ix2 r' d)) (hm : mg r = mg' r') (hw : w r = w' r') :
    weighted a p n mg w r = weighted a' p' n' mg' w' r' := by
  unfold weighted rowLoss sqDist
  simp only [ha, hp, hn, hm, hw]

/-- A running total that restarts from zero at every multiple of 32 (`h0`) and at every other point adds the point's
    term to what the point before left (`hs`) is, `j` points into the run that starts at `32 q`, the sum of the run's
    first `j + 1` terms. -/
theorem acc_closed {N : ℕ} (L : (n : ℕ) → n < N → EReal) (T : ℕ → EReal)
    (h0 : ∀ (n : ℕ) (h : n < N), n % 32 = 0 → L n h = 0 + T n)
    (hs : ∀ (n : ℕ) (h : n + 1 < N), ¬(n + 1) % 32 = 0 → L (n + 1) h = L n (Nat.lt_of_succ_lt h) + T (n + 1))
    (q : ℕ) : ∀ (j : ℕ) (_ : j < 32) (h : 32 * q + j < N),
      L (32 * q + j) h = ∑ s ∈ Finset.range (j + 1), T (32 * q + s)
  | 0, _, h => by
    rw [h0 _ h (by omega), zero_add, Finset.sum_range_one]
  | j + 1, hj, h => by
    have hne : ¬(32 * q + j + 1) % 32 = 0 := by omega
    rw [Finset.sum_range_succ, ← acc_closed L T h0 hs q j (by omega) (Nat.lt_of_succ_lt h)]
    exact hs (32 * q + j) h hne

end Cert.Triplet

end
-- ==== Proof.LibColumnLayout.lean ====
/-
  A column kept as a trailing unit axis, read at an index given by coordinates.

  A sum along the last axis with the reduced axis kept has shape `[a, 1]`: a vector's value for row `p` sits at
  `(p, 0)`. Two layout steps surround such a column: the cast of an `[a]` vector to the `[a, 1]` column (entry `(p, u)`
  is the vector's entry `p`, since the row-major position `p · 1 + u` is `p`), and the broadcast of the column along a
  new last axis of length `b` (entry `(p, c)` is the column's entry `(p, 0)`, whatever `c`). Both are stated for any
  element type and any extents, over indices written by coordinates.
-/
import Idealize.ShloMosaic.Lib.Pipeline.Value
import Idealize.ShloMosaic.Lib.ValueIdx

namespace Idealize.ShloMosaic.ValueIdx

open Idealize.ShloMosaic

variable {α : Type}

/-- An `[a]` vector cast to the `[a, 1]` column reads, at `(p, u)`, the vector at `p`: the unit coordinate `u` is `0`, so
    both row-major positions are `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry for row `p`: the row coordinate is
    kept (when `a = 1` it is `0` either way), the unit axis reads its only entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KPayload.lean ====
/-
  The body's arithmetic, read at an index over the extended reals.

  On a tile of 2048 rows the body forms, per row, the two distances (a lane sum of squared differences, kept as a
  column, and its square root), the clamped margin expression, and the product with the row's weight; then it sums the
  2048 products and, separately, the 2048 weights, and adds each sum to its running total. Read at an index, a lane sum
  is the sum over the 256 columns, the column cast reads the vector at the row, and a sum over the rows of a one-column
  array is the sum over the 2048 rows: so the new running totals are the old ones plus the tile's sums of the
  specification's weighted row losses and of the weights, and the block written at a core's last tile holds the total
  at every entry.
-/
import proofs.«407088_j81767587381279_3_alg».proof.Proof.Gen.KernelIdeal.Skeleton
import proofs.«407088_j81767587381279_3_alg».proof.Proof.Spec
import proofs.«407088_j81767587381279_3_alg».proof.Proof.LibColumnLayout
import Idealize.ShloMosaic.Lib.Pipeline.Value
import Idealize.ShloMosaic.Lib.ValueIdx
import Idealize.ShloMosaic.PureOps.Ideal.Laws

set_option maxRecDepth 16384

noncomputable section

namespace Cert.KernelIdeal.Payload

open Cert.KernelIdeal Cert.KernelIdeal.Gen
open Idealize.ShloMosaic Idealize.ShloMosaic.TcCoe Idealize.ShloMosaic.Tactic Idealize.ShloMosaic.ValueIdx
open Idealize.SL Idealize.SL.Sem

open Cert.Triplet

/-- A row's distance column: the lane sum of the squared differences, as a column, under the square root. -/
def colDist (a p : FVec Ideal S2048x256 .f32) : FVec Ideal S2048x1 .f32 :=
  sqrt (shapeCast S2048x1 (multiReduction .add [1] S2048 (mulf (subf a p) (subf a p)) 0x00000000#32 reduces_S2048x256_S2048 (.inl rfl) rfl) shapeCasts_S2048_S2048x1)

/-- The tile's loss column: distance to the positive minus distance to the negative plus the margin, clamped at zero. -/
def colLoss (a p n : FVec Ideal S2048x256 .f32) (mg : FVec Ideal S2048x1 .f32) : FVec Ideal S2048x1 .f32 :=
  maximumf (addf (subf (colDist a p) (colDist a n)) mg) (broadcast S2048x1 (Scalar.ofBits .f32 0x00000000#32))

/-- The sum of a one-column tile over its 2048 rows, as a one-word array. -/
def colSum (w : FVec Ideal S2048x1 .f32) : FVec Ideal S1x1 .f32 :=
  shapeCast S1x1 (multiReduction .add [0] S1 w 0x00000000#32 reduces_S2048x1_S1 (.inl rfl) rfl) shapeCasts_S1_S1x1

/-- The running weighted-loss total after a tile: the old total plus the sum of the tile's weighted loss column. -/
theorem lossAcc_eq (a p n : FVec Ideal S2048x256 .f32) (mg w : FVec Ideal S2048x1 .f32) (acc : FVec Ideal S1x1 .f32) :
    k0_pay8 (F := Ideal) a p n mg w acc = addf acc (colSum (mulf (colLoss a p n mg) w)) := by
  unfold k0_pay8 k0_pay6 colSum colLoss colDist
  simp only [shapeCast_self]

/-- The running weight total after a tile: the old total plus the sum of the tile's weight column. -/
theorem wAcc_eq (w : FVec Ideal S2048x1 .f32) (acc : FVec Ideal S1x1 .f32) :
    k0_pay1 (F := Ideal) (k0_pay7 w) acc = addf acc (colSum w) := by
  unfold k0_pay1 k0_pay7 k0_pay6 colSum
  simp only [shapeCast_self]

/-- The lane sum's index: column `d` of row `q`. -/
theorem lift_row (h : S2048x256.Reduces [1] S2048) (q : Fin 2048) (d : Fin 256) : h.lift (ix1 q) d = ix2 q d :=
  funext fun a => Fin.ext (by match a with | ⟨0, _⟩ => rfl | ⟨1, _⟩ => rfl)

/-- The row sum's index: row `q` of the one column. -/
theorem lift_col (h : S2048x1.Reduces [0] S1) (u : Fin 1) (q : Fin 2048) : h.lift (ix1 u) q = ix2 q u :=
  funext fun a => Fin.ext (by match a with | ⟨0, _⟩ => rfl | ⟨1, _⟩ => rfl)

/-- The distance column at row `q` is the square root of the specification's squared distance of row `q`. -/
theorem colDist_apply (a p : FVec Ideal S2048x256 .f32) (q : Fin 2048) (u : Fin 1) :
    colDist a p (ix2 q u) = Ideal.sqrt (sqDist a p q) := by
  unfold colDist
  show Ideal.sqrt (shapeCast S2048x1 _ shapeCasts_S2048_S2048x1 (ix2 q u)) = _
  refine congrArg Ideal.sqrt ?_
  refine (shapeCast_a_a1_apply _ shapeCasts_S2048_S2048x1 q u).trans ?_
  refine (Ideal.multiReduction_add_single (mulf (subf a p) (subf a p)) 0x00000000#32 reduces_S2048x256_S2048 (.inl rfl) rfl (ix1 q)).trans ?_
  unfold sqDist
  show ∑ d : Fin 256, (mulf (subf a p) (subf a p)) (reduces_S2048x256_S2048.lift (ix1 q) d) = ∑ d : Fin 256, _
  refine Finset.sum_congr rfl fun d _ => ?_
  exact congrArg (mulf (subf a p) (subf a p)) (lift_row reduces_S2048x256_S2048 q d)

/-- The loss column at row `q` is the specification's loss of row `q` of the tile. -/
theorem colLoss_apply (a p n : FVec Ideal S2048x256 .f32) (mg : FVec Ideal S2048x1 .f32) (q : Fin 2048) :
    colLoss a p n mg (ix2 q (0 : Fin 1)) = rowLoss a p n (fun q => mg (ix2 q (0 : Fin 1))) q := by
  unfold colLoss rowLoss
  show max (colDist a p (ix2 q 0) - colDist a n (ix2 q 0) + mg (ix2 q 0)) (Ideal.ofBits .f32 0x00000000#32) = _
  rw [colDist_apply, colDist_apply, Ideal.ofBits_zero_f32]

/-- The sum of a one-column tile, at its one entry, is the sum over the 2048 rows. -/
theorem colSum_apply (w : FVec Ideal S2048x1 .f32) (u v : Fin 1) :
    colSum w (ix2 u v) = ∑ q : Fin 2048, w (ix2 q (0 : Fin 1)) := by
  obtain rfl : u = 0 := Subsingleton.elim u 0
  unfold colSum
  refine (shapeCast_a_a1_apply _ shapeCasts_S1_S1x1 0 v).trans ?_
  refine (Ideal.multiReduction_add_single w 0x00000000#32 reduces_S2048x1_S1 (.inl rfl) rfl (ix1 0)).trans ?_
  show ∑ q : Fin 2048, w (reduces_S2048x1_S1.lift (ix1 0) q) = ∑ q : Fin 2048, _
  refine Finset.sum_congr rfl fun q _ => ?_
  exact congrArg w (lift_col reduces_S2048x1_S1 0 q)

/-- The running weighted-loss total after a tile, at its one entry: the old total plus the tile's sum of the
    specification's weighted row losses. -/
theorem lossAcc_apply (a p n : FVec Ideal S2048x256 .f32) (mg w : FVec Ideal S2048x1 .f32) (acc : FVec Ideal S1x1 .f32) (u v : Fin 1) :
    k0_pay8 (F := Ideal) a p n mg w acc (ix2 u v)
      = acc (ix2 u v) + ∑ q : Fin 2048, weighted a p n (fun q => mg (ix2 q (0 : Fin 1))) (fun q => w (ix2 q (0 : Fin 1))) q := by
  rw [lossAcc_eq]
  show acc (ix2 u v) + colSum (mulf (colLoss a p n mg) w) (ix2 u v) = _
  rw [colSum_apply]
  refine congrArg (acc (ix2 u v) + ·) (Finset.sum_congr rfl fun q _ => ?_)
  show colLoss a p n mg (ix2 q 0) * w (ix2 q 0) = _
  rw [colLoss_apply]
  rfl

/-- The running weight total after a tile, at its one entry: the old total plus the tile's sum of the weights. -/
theorem wAcc_apply (w : FVec Ideal S2048x1 .f32) (acc : FVec Ideal S1x1 .f32) (u v : Fin 1) :
    k0_pay1 (F := Ideal) (k0_pay7 w) acc (ix2 u v) = acc (ix2 u v) + ∑ q : Fin 2048, w (ix2 q (0 : Fin 1)) := by
  rw [wAcc_eq]
  show acc (ix2 u v) + colSum w (ix2 u v) = _
  rw [colSum_apply]

/-- The word a core's first tile stores before it accumulates is zero. -/
theorem zeroL_apply (u v : Fin 1) : (k0_pay4 (F := Ideal)) (ix2 u v) = 0 := by
  unfold k0_pay4
  simp only [shapeCast_self]
  exact Ideal.ofBits_zero_f32

theorem zeroW_apply (u v : Fin 1) : (k0_pay5 (F := Ideal)) (ix2 u v) = 0 := by
  unfold k0_pay5
  simp only [shapeCast_self]
  exact Ideal.ofBits_zero_f32

/-- The block written at a core's last tile holds the total at every entry. -/
theorem lossOut_apply (s : FVec Ideal S1x1 .f32) (r : Fin 8) (l : Fin 128) :
    k0_pay2 (F := Ideal) s (ix2 r l) = s (ix2 (0 : Fin 1) (0 : Fin 1)) := by
  unfold k0_pay2
  simp only [shapeCast_self]
  exact broadcastTo_apply s broadcasts_S1x1_S8x128 (ix2 r l) (ix2 0 0) fun a => by
    match a with
    | ⟨0, _⟩ => rfl
    | ⟨1, _⟩ => rfl

theorem wOut_apply (s : FVec Ideal S1x1 .f32) (r : Fin 8) (l : Fin 128) :
    k0_pay3 (F := Ideal) s (ix2 r l) = s (ix2 (0 : Fin 1) (0 : Fin 1)) := by
  unfold k0_pay3
  simp only [shapeCast_self]
  exact broadcastTo_apply s broadcasts_S1x1_S8x128 (ix2 r l) (ix2 0 0) fun a => by
    match a with
    | ⟨0, _⟩ => rfl
    | ⟨1, _⟩ => rfl

end Cert.KernelIdeal.Payload

end
-- ==== Proof.KAccum.lean ====
/-
  The two running totals, point by point, and what they are when a core finishes.

  The grid has 64 points: point `t` is core `t / 32`'s row tile `t % 32`, and every input window's block at point `t`
  is rows `2048 t … 2048 t + 2047` of its array. At a core's first tile the totals restart from zero; at every other
  tile they continue from the tile before. So, `j` tiles into core `k`'s run, each total is the sum of the run's first
  `j + 1` tile sums; and a tile's sums are sums over its 2048 rows of the specification's weighted row loss, and of
  the weight, of the whole arrays the region finds.
-/
import proofs.«407088_j81767587381279_3_alg».proof.Proof.Gen.KernelIdeal.Frame
import proofs.«407088_j81767587381279_3_alg».proof.Proof.KPieces
import proofs.«407088_j81767587381279_3_alg».proof.Proof.KPayload
import proofs.«407088_j81767587381279_3_alg».proof.Proof.Spec
import Idealize.ShloMosaic.Lib.Pipeline.Value
import Idealize.ShloMosaic.Lib.ValueIdx

set_option maxRecDepth 16384

noncomputable section

namespace Cert.KernelIdeal.Accum

open Cert.KernelIdeal Cert.KernelIdeal.Gen
open Idealize.ShloMosaic Idealize.ShloMosaic.TcCoe Idealize.ShloMosaic.Tactic Idealize.ShloMosaic.ValueIdx
open Idealize.SL Idealize.SL.Sem

open Cert.Triplet

variable (m : (ℓ : Loc nD τ sig) → Buf (Elt Ideal) ℓ)

/-! ## The blocks and the arrays, by their literal types -/

/-- The anchor, positive and negative row blocks and the margin and weight column blocks at point `t`. -/
abbrev aBlk (c : Dev nD) (t : Fin cfg0.N) : FVec Ideal S2048x256 .f32 := iblk m c 0 t
abbrev pBlk (c : Dev nD) (t : Fin cfg0.N) : FVec Ideal S2048x256 .f32 := iblk m c 1 t
abbrev nBlk (c : Dev nD) (t : Fin cfg0.N) : FVec Ideal S2048x256 .f32 := iblk m c 2 t
abbrev mBlk (c : Dev nD) (t : Fin cfg0.N) : FVec Ideal S2048x1 .f32 := iblk m c 3 t
abbrev wBlk (c : Dev nD) (t : Fin cfg0.N) : FVec Ideal S2048x1 .f32 := iblk m c 4 t

/-- The five arrays as the region finds them. -/
abbrev aArr (c : Dev nD) : FVec Ideal S131072x256 .f32 := V m c main_arg0
abbrev pArr (c : Dev nD) : FVec Ideal S131072x256 .f32 := V m c main_v0
abbrev nArr (c : Dev nD) : FVec Ideal S131072x256 .f32 := V m c main_v1
abbrev mArr (c : Dev nD) : FVec Ideal S131072x1 .f32 := V m c main_v18
abbrev wArr (c : Dev nD) : FVec Ideal S131072x1 .f32 := V m c main_v19

/-- The margin and the weight of row `r`: the columns' entries. -/
def mgOf (c : Dev nD) (r : Fin 131072) : EReal := mArr m c (ix2 r (0 : Fin 1))
def wOf (c : Dev nD) (r : Fin 131072) : EReal := wArr m c (ix2 r (0 : Fin 1))

/-- Row `r`'s weighted loss, of the arrays the region finds. -/
def rowTerm (c : Dev nD) : Fin 131072 → EReal := weighted (aArr m c) (pArr m c) (nArr m c) (mgOf m c) (wOf m c)

/-! ## A block at point `t` is rows `2048 t …` of its array -/

theorem aBlk_apply (c : Dev nD) (t : Fin cfg0.N) (q : Fin 2048) (d : Fin 256) (hr : t.val * 2048 + q.val < 131072) :
    aBlk m c t (ix2 q d) = aArr m c (ix2 ⟨t.val * 2048 + q.val, hr⟩ d) := by
  have hi : win0_0.index t 0 = t.val ∧ win0_0.index t 1 = 0 :=
    (by decide +kernel : ∀ t : Fin grid0.N, win0_0.index t 0 = t.val ∧ win0_0.index t 1 = 0) t
  show iblk m c 0 t (ix2 q d) = _
  unfold iblk
  rw [View.read_apply]
  show V m c main_arg0 _ = V m c main_arg0 _
  refine congrArg (V m c main_arg0) (funext fun a => Fin.ext ?_)
  match a with
  | ⟨0, _⟩ => show win0_0.index t 0 * 2048 + 1 * q.val = t.val * 2048 + q.val; rw [hi.1]; omega
  | ⟨1, _⟩ => show win0_0.index t 1 * 256 + 1 * d.val = d.val; rw [hi.2]; omega

theorem pBlk_apply (c : Dev nD) (t : Fin cfg0.N) (q : Fin 2048) (d : Fin 256) (hr : t.val * 2048 + q.val < 131072) :
    pBlk m c t (ix2 q d) = pArr m c (ix2 ⟨t.val * 2048 + q.val, hr⟩ d) := by
  have hi : win0_1.index t 0 = t.val ∧ win0_1.index t 1 = 0 :=
    (by decide +kernel : ∀ t : Fin grid0.N, win0_1.index t 0 = t.val ∧ win0_1.index t 1 = 0) t
  show iblk m c 1 t (ix2 q d) = _
  unfold iblk
  rw [View.read_apply]
  show V m c main_v0 _ = V m c main_v0 _
  refine congrArg (V m c main_v0) (funext fun a => Fin.ext ?_)
  match a with
  | ⟨0, _⟩ => show win0_1.index t 0 * 2048 + 1 * q.val = t.val * 2048 + q.val; rw [hi.1]; omega
  | ⟨1, _⟩ => show win0_1.index t 1 * 256 + 1 * d.val = d.val; rw [hi.2]; omega

theorem nBlk_apply (c : Dev nD) (t : Fin cfg0.N) (q : Fin 2048) (d : Fin 256) (hr : t.val * 2048 + q.val < 131072) :
    nBlk m c t (ix2 q d) = nArr m c (ix2 ⟨t.val * 2048 + q.val, hr⟩ d) := by
  have hi : win0_2.index t 0 = t.val ∧ win0_2.index t 1 = 0 :=
    (by decide +kernel : ∀ t : Fin grid0.N, win0_2.index t 0 = t.val ∧ win0_2.index t 1 = 0) t
  show iblk m c 2 t (ix2 q d) = _
  unfold iblk
  rw [View.read_apply]
  show V m c main_v1 _ = V m c main_v1 _
  refine congrArg (V m c main_v1) (funext fun a => Fin.ext ?_)
  match a with
  | ⟨0, _⟩ => show win0_2.index t 0 * 2048 + 1 * q.val = t.val * 2048 + q.val; rw [hi.1]; omega
  | ⟨1, _⟩ => show win0_2.index t 1 * 256 + 1 * d.val = d.val; rw [hi.2]; omega

theorem mBlk_apply (c : Dev nD) (t : Fin cfg0.N) (q : Fin 2048) (hr : t.val * 2048 + q.val < 131072) :
    mBlk m c t (ix2 q (0 : Fin 1)) = mArr m c (ix2 ⟨t.val * 2048 + q.val, hr⟩ (0 : Fin 1)) := by
  have hi : win0_3.index t 0 = t.val ∧ win0_3.index t 1 = 0 :=
    (by decide +kernel : ∀ t : Fin grid0.N, win0_3.index t 0 = t.val ∧ win0_3.index t 1 = 0) t
  show iblk m c 3 t (ix2 q 0) = _
  unfold iblk
  rw [View.read_apply]
  show V m c main_v18 _ = V m c main_v18 _
  refine congrArg (V m c main_v18) (funext fun a => Fin.ext ?_)
  match a with
  | ⟨0, _⟩ => show win0_3.index t 0 * 2048 + 1 * q.val = t.val * 2048 + q.val; rw [hi.1]; omega
  | ⟨1, _⟩ => show win0_3.index t 1 * 1 + 1 * 0 = 0; rw [hi.2]

theorem wBlk_apply (c : Dev nD) (t : Fin cfg0.N) (q : Fin 2048) (hr : t.val * 2048 + q.val < 131072) :
    wBlk m c t (ix2 q (0 : Fin 1)) = wArr m c (ix2 ⟨t.val * 2048 + q.val, hr⟩ (0 : Fin 1)) := by
  have hi : win0_4.index t 0 = t.val ∧ win0_4.index t 1 = 0 :=
    (by decide +kernel : ∀ t : Fin grid0.N, win0_4.index t 0 = t.val ∧ win0_4.index t 1 = 0) t
  show iblk m c 4 t (ix2 q 0) = _
  unfold iblk
  rw [View.read_apply]
  show V m c main_v19 _ = V m c main_v19 _
  refine congrArg (V m c main_v19) (funext fun a => Fin.ext ?_)
  match a with
  | ⟨0, _⟩ => show win0_4.index t 0 * 2048 + 1 * q.val = t.val * 2048 + q.val; rw [hi.1]; omega
  | ⟨1, _⟩ => show win0_4.index t 1 * 1 + 1 * 0 = 0; rw [hi.2]

/-! ## A tile's two sums -/

/-- The tile's sum of weighted row losses, and of weights, over the blocks at point `t`. -/
def tileLoss (c : Dev nD) (t : Fin cfg0.N) : EReal :=
  ∑ q : Fin 2048, weighted (aBlk m c t) (pBlk m c t) (nBlk m c t) (fun q => mBlk m c t (ix2 q (0 : Fin 1))) (fun q => wBlk m c t (ix2 q (0 : Fin 1))) q
def tileW (c : Dev nD) (t : Fin cfg0.N) : EReal := ∑ q : Fin 2048, wBlk m c t (ix2 q (0 : Fin 1))

/-- The tile sums as sums over rows `2048 t + q` of the whole arrays' terms. -/
theorem tileLoss_eq (c : Dev nD) (t : Fin cfg0.N) :
    tileLoss m c t = ∑ q : Fin 2048, onNat (rowTerm m c) (t.val * 2048 + q.val) := by
  have hN : cfg0.N = 64 := N_0
  unfold tileLoss
  refine Finset.sum_congr rfl fun q _ => ?_
  have hr : t.val * 2048 + q.val < 131072 := by have := t.isLt; have := q.isLt; omega
  refine Eq.trans ?_ (onNat_val (rowTerm m c) ⟨t.val * 2048 + q.val, hr⟩).symm
  exact weighted_congr (fun d => aBlk_apply m c t q d hr) (fun d => pBlk_apply m c t q d hr) (fun d => nBlk_apply m c t q d hr)
    (mBlk_apply m c t q hr) (wBlk_apply m c t q hr)

theorem tileW_eq (c : Dev nD) (t : Fin cfg0.N) :
    tileW m c t = ∑ q : Fin 2048, onNat (wOf m c) (t.val * 2048 + q.val) := by
  have hN : cfg0.N = 64 := N_0
  unfold tileW
  refine Finset.sum_congr rfl fun q _ => ?_
  have hr : t.val * 2048 + q.val < 131072 := by have := t.isLt; have := q.isLt; omega
  exact (wBlk_apply m c t q hr).trans (onNat_val (wOf m c) ⟨t.val * 2048 + q.val, hr⟩).symm

/-! ## The running totals after each point -/

/-- The two accumulator words after the body at point `n`. -/
def lossAt (c : Dev nD) (n : ℕ) (h : n < cfg0.N) : EReal := (outsAt0 m c n h).2.2.1 (ix2 (0 : Fin 1) (0 : Fin 1))
def wAt (c : Dev nD) (n : ℕ) (h : n < cfg0.N) : EReal := (outsAt0 m c n h).2.2.2 (ix2 (0 : Fin 1) (0 : Fin 1))

/-- At a core's first tile the totals are zero plus the tile's sums. -/
theorem lossAt_first (c : Dev nD) (t : Fin cfg0.N) (h0 : t.val % 32 = 0) : lossAt m c t.val t.isLt = 0 + tileLoss m c t := by
  have h1 : ¬t.val % 32 = 31 := by omega
  unfold lossAt
  rw [outsAt0_A m c t h0 h1]
  dsimp only
  refine (congrFun (Pieces.lossAcc_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (aBlk m c t) (pBlk m c t) (nBlk m c t) (mBlk m c t) (wBlk m c t)) (ix2 0 0)).trans ?_
  refine (Payload.lossAcc_apply (aBlk m c t) (pBlk m c t) (nBlk m c t) (mBlk m c t) (wBlk m c t) (k0_pay4 (F := Ideal)) 0 0).trans ?_
  rw [Payload.zeroL_apply]
  rfl

theorem wAt_first (c : Dev nD) (t : Fin cfg0.N) (h0 : t.val % 32 = 0) : wAt m c t.val t.isLt = 0 + tileW m c t := by
  have h1 : ¬t.val % 32 = 31 := by omega
  unfold wAt
  rw [outsAt0_A m c t h0 h1]
  dsimp only
  refine (congrFun (Pieces.wAcc_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (aBlk m c t) (pBlk m c t) (nBlk m c t) (mBlk m c t) (wBlk m c t)) (ix2 0 0)).trans ?_
  refine (Payload.wAcc_apply (wBlk m c t) (k0_pay5 (F := Ideal)) 0 0).trans ?_
  rw [Payload.zeroW_apply]
  rfl

/-- At every other tile the totals are the tile before's plus the tile's sums. -/
theorem lossAt_step (c : Dev nD) (t : Fin cfg0.N) (h0 : ¬t.val % 32 = 0) :
    lossAt m c t.val t.isLt = lossAt m c (t.val - 1) (Nat.lt_of_le_of_lt (Nat.sub_le _ _) t.isLt) + tileLoss m c t := by
  unfold lossAt
  by_cases h1 : t.val % 32 = 31
  · rw [outsAt0_C m c t h0 h1]
    dsimp only
    refine (congrFun (Pieces.lossAcc_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (aBlk m c t) (pBlk m c t) (nBlk m c t) (mBlk m c t) (wBlk m c t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 0 0)).trans ?_
    exact Payload.lossAcc_apply (aBlk m c t) (pBlk m c t) (nBlk m c t) (mBlk m c t) (wBlk m c t) _ 0 0
  · rw [outsAt0_B m c t h0 h1]
    dsimp only
    refine (congrFun (Pieces.lossAcc_mid (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (aBlk m c t) (pBlk m c t) (nBlk m c t) (mBlk m c t) (wBlk m c t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 0 0)).trans ?_
    exact Payload.lossAcc_apply (aBlk m c t) (pBlk m c t) (nBlk m c t) (mBlk m c t) (wBlk m c t) _ 0 0

theorem wAt_step (c : Dev nD) (t : Fin cfg0.N) (h0 : ¬t.val % 32 = 0) :
    wAt m c t.val t.isLt = wAt m c (t.val - 1) (Nat.lt_of_le_of_lt (Nat.sub_le _ _) t.isLt) + tileW m c t := by
  unfold wAt
  by_cases h1 : t.val % 32 = 31
  · rw [outsAt0_C m c t h0 h1]
    dsimp only
    refine (congrFun (Pieces.wAcc_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (aBlk m c t) (pBlk m c t) (nBlk m c t) (mBlk m c t) (wBlk m c t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 0 0)).trans ?_
    exact Payload.wAcc_apply (wBlk m c t) _ 0 0
  · rw [outsAt0_B m c t h0 h1]
    dsimp only
    refine (congrFun (Pieces.wAcc_mid (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (aBlk m c t) (pBlk m c t) (nBlk m c t) (mBlk m c t) (wBlk m c t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 0 0)).trans ?_
    exact Payload.wAcc_apply (wBlk m c t) _ 0 0

/-- A tile's sums, continued by zero past the grid. -/
def tileLossN (c : Dev nD) (n : ℕ) : EReal := if h : n < cfg0.N then tileLoss m c ⟨n, h⟩ else 0
def tileWN (c : Dev nD) (n : ℕ) : EReal := if h : n < cfg0.N then tileW m c ⟨n, h⟩ else 0

/-- `j` tiles into core `k`'s run, each total is the sum of the run's first `j + 1` tile sums. -/
theorem lossAt_run (c : Dev nD) (k j : ℕ) (hj : j < 32) (h : 32 * k + j < cfg0.N) :
    lossAt m c (32 * k + j) h = ∑ s ∈ Finset.range (j + 1), tileLossN m c (32 * k + s) :=
  acc_closed (lossAt m c) (tileLossN m c)
    (fun n hn h0 => by rw [lossAt_first m c ⟨n, hn⟩ h0]; unfold tileLossN; rw [dif_pos hn])
    (fun n hn h0 => by
      have := lossAt_step m c ⟨n + 1, hn⟩ h0
      unfold tileLossN; rw [dif_pos hn]; exact this)
    k j hj h

theorem wAt_run (c : Dev nD) (k j : ℕ) (hj : j < 32) (h : 32 * k + j < cfg0.N) :
    wAt m c (32 * k + j) h = ∑ s ∈ Finset.range (j + 1), tileWN m c (32 * k + s) :=
  acc_closed (wAt m c) (tileWN m c)
    (fun n hn h0 => by rw [wAt_first m c ⟨n, hn⟩ h0]; unfold tileWN; rw [dif_pos hn])
    (fun n hn h0 => by
      have := wAt_step m c ⟨n + 1, hn⟩ h0
      unfold tileWN; rw [dif_pos hn]; exact this)
    k j hj h

end Cert.KernelIdeal.Accum

end
-- ==== Proof.KArrays.lean ====
/-
  What the two result arrays hold after the region.

  The pipeline writes an output block back only at a core's last row tile: core `k` (points `32 k … 32 k + 31`) writes
  rows `8 k … 8 k + 7` of each [16, 128] result array at point `32 k + 31`, and what it writes is the core's finished
  total at every entry. So each result array holds, in rows `8 k … 8 k + 7`, core `k`'s total: the sum of the 32 tile
  sums of the core's run.
-/
import proofs.«407088_j81767587381279_3_alg».proof.Proof.Gen.KernelIdeal.Frame
import proofs.«407088_j81767587381279_3_alg».proof.Proof.KAccum
import Idealize.ShloMosaic.Lib.Pipeline.Value
import Idealize.ShloMosaic.Lib.ValueIdx

set_option maxRecDepth 16384

noncomputable section

namespace Cert.KernelIdeal.Arrays

open Cert.KernelIdeal Cert.KernelIdeal.Gen
open Idealize.ShloMosaic Idealize.ShloMosaic.TcCoe Idealize.ShloMosaic.Tactic Idealize.ShloMosaic.ValueIdx
open Idealize.SL Idealize.SL.Sem

open Cert.Triplet Cert.KernelIdeal.Accum
open Idealize.ShloMosaic.Pipeline (Dat)

variable (m : (ℓ : Loc nD τ sig) → Buf (Elt Ideal) ℓ)

/-- Core `k`'s finished totals: the sums of the 32 tile sums of its run. -/
def coreLoss (c : Dev nD) (k : ℕ) : EReal := ∑ s ∈ Finset.range 32, tileLossN m c (32 * k + s)
def coreW (c : Dev nD) (k : ℕ) : EReal := ∑ s ∈ Finset.range 32, tileWN m c (32 * k + s)

/-- The running totals depend on the point only, not on how it is written. -/
theorem lossAt_congr (c : Dev nD) {n n' : ℕ} (e : n = n') (h : n < cfg0.N) (h' : n' < cfg0.N) : lossAt m c n h = lossAt m c n' h' := by
  subst e; rfl
theorem wAt_congr (c : Dev nD) {n n' : ℕ} (e : n = n') (h : n < cfg0.N) (h' : n' < cfg0.N) : wAt m c n h = wAt m c n' h' := by
  subst e; rfl

/-- At a core's last tile the running totals are the core's finished totals. -/
theorem lossAt_last (c : Dev nD) (t : Fin cfg0.N) (h31 : t.val % 32 = 31) : lossAt m c t.val t.isLt = coreLoss m c (t.val / 32) := by
  have e : t.val = 32 * (t.val / 32) + 31 := by omega
  have h' : 32 * (t.val / 32) + 31 < cfg0.N := by rw [← e]; exact t.isLt
  exact (lossAt_congr m c e t.isLt h').trans (lossAt_run m c (t.val / 32) 31 (by omega) h')
theorem wAt_last (c : Dev nD) (t : Fin cfg0.N) (h31 : t.val % 32 = 31) : wAt m c t.val t.isLt = coreW m c (t.val / 32) := by
  have e : t.val = 32 * (t.val / 32) + 31 := by omega
  have h' : 32 * (t.val / 32) + 31 < cfg0.N := by rw [← e]; exact t.isLt
  exact (wAt_congr m c e t.isLt h').trans (wAt_run m c (t.val / 32) 31 (by omega) h')

/-- At a core's last tile every entry of the block the body leaves for the loss output is the running loss total,
    and every entry of the weight output's block the running weight total. -/
theorem lossOut_entry (c : Dev nD) (t : Fin cfg0.N) (h31 : t.val % 32 = 31) (j : S8x128.Idx) :
    (outsAt0 m c t.val t.isLt).1 j = lossAt m c t.val t.isLt := by
  have h0 : ¬t.val % 32 = 0 := by omega
  have eL : lossAt m c t.val t.isLt = k0_pay8 (F := Ideal) (aBlk m c t) (pBlk m c t) (nBlk m c t) (mBlk m c t) (wBlk m c t) (outsAt0 m c (t.val - 1) (Nat.lt_of_le_of_lt (Nat.sub_le _ _) t.isLt)).2.2.1 (ix2 (0 : Fin 1) (0 : Fin 1)) := by
    unfold lossAt
    rw [outsAt0_C m c t h0 h31]
    dsimp only
    exact congrFun (Pieces.lossAcc_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h31) (aBlk m c t) (pBlk m c t) (nBlk m c t) (mBlk m c t) (wBlk m c t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 0 0)
  rw [eL, outsAt0_C m c t h0 h31]
  dsimp only
  refine (congrFun (Pieces.lossOut_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h31) (aBlk m c t) (pBlk m c t) (nBlk m c t) (mBlk m c t) (wBlk m c t) (outsAt0 m c (t.val - 1) (Nat.lt_of_le_of_lt (Nat.sub_le _ _) t.isLt)).2.2.1 (outsAt0 m c (t.val - 1) (Nat.lt_of_le_of_lt (Nat.sub_le _ _) t.isLt)).2.2.2) j).trans ?_
  obtain ⟨r, l, rfl⟩ : ∃ (r : Fin 8) (l : Fin 128), j = ix2 r l := ⟨j 0, j 1, eq_ix2 j⟩
  exact Payload.lossOut_apply _ r l

theorem wOut_entry (c : Dev nD) (t : Fin cfg0.N) (h31 : t.val % 32 = 31) (j : S8x128.Idx) :
    (outsAt0 m c t.val t.isLt).2.1 j = wAt m c t.val t.isLt := by
  have h0 : ¬t.val % 32 = 0 := by omega
  have eW : wAt m c t.val t.isLt = k0_pay1 (F := Ideal) (k0_pay7 (wBlk m c t)) (outsAt0 m c (t.val - 1) (Nat.lt_of_le_of_lt (Nat.sub_le _ _) t.isLt)).2.2.2 (ix2 (0 : Fin 1) (0 : Fin 1)) := by
    unfold wAt
    rw [outsAt0_C m c t h0 h31]
    dsimp only
    exact congrFun (Pieces.wAcc_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h31) (aBlk m c t) (pBlk m c t) (nBlk m c t) (mBlk m c t) (wBlk m c t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 0 0)
  rw [eW, outsAt0_C m c t h0 h31]
  dsimp only
  refine (congrFun (Pieces.wOut_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h31) (aBlk m c t) (pBlk m c t) (nBlk m c t) (mBlk m c t) (wBlk m c t) (outsAt0 m c (t.val - 1) (Nat.lt_of_le_of_lt (Nat.sub_le _ _) t.isLt)).2.2.1 (outsAt0 m c (t.val - 1) (Nat.lt_of_le_of_lt (Nat.sub_le _ _) t.isLt)).2.2.2) j).trans ?_
  obtain ⟨r, l, rfl⟩ : ∃ (r : Fin 8) (l : Fin 128), j = ix2 r l := ⟨j 0, j 1, eq_ix2 j⟩
  exact Payload.wOut_apply _ r l

/-- The contents the result arrays end with: rows `8 k … 8 k + 7` at core `k`'s total. -/
def lossOutArr (c : Dev nD) : Buf (Elt Ideal) ((c : Thread nD τ).loc main_v20_0) := fun i : S16x128.Idx => coreLoss m c ((i 0).val / 8)
def wOutArr (c : Dev nD) : Buf (Elt Ideal) ((c : Thread nD τ).loc main_v20_1) := fun i : S16x128.Idx => coreW m c ((i 0).val / 8)

/-- A write-back writes its block of those contents. -/
theorem flushed_loss (c : Dev nD) (t : Fin cfg0.N) (hf : (cfg0.win 5).flush t = true) :
    (dats m 0 c).flushed 5 t = ((cfg0.win 5).blk t).view.read (Elt Ideal) (lossOutArr m c) := by
  have h31 : t.val % 32 = 31 := (flush0_5 t).mp hf
  have hi : win0_5.index t 0 = t.val / 32 := (by decide +kernel : ∀ t : Fin grid0.N, win0_5.index t 0 = t.val / 32) t
  have hx : win0_5.xsize (grid0.coords t) 0 = 8 := (by decide +kernel : ∀ t : Fin grid0.N, win0_5.xsize (grid0.coords t) 0 = 8) t
  funext y
  rw [View.read_apply]
  show (dats m 0 c).after 5 t ((cfg0.win 5).xinj (grid0.coords t) y) = coreLoss m c ((win0_5.index t 0 * 8 + 1 * (y 0).val) / 8)
  rw [after0_5, lossOut_entry m c t h31, lossAt_last m c t h31, hi]
  have hy : (y 0).val < 8 := lt_of_lt_of_eq (y 0).isLt hx
  congr 1
  omega

theorem flushed_w (c : Dev nD) (t : Fin cfg0.N) (hf : (cfg0.win 6).flush t = true) :
    (dats m 0 c).flushed 6 t = ((cfg0.win 6).blk t).view.read (Elt Ideal) (wOutArr m c) := by
  have h31 : t.val % 32 = 31 := (flush0_6 t).mp hf
  have hi : win0_6.index t 0 = t.val / 32 := (by decide +kernel : ∀ t : Fin grid0.N, win0_6.index t 0 = t.val / 32) t
  have hx : win0_6.xsize (grid0.coords t) 0 = 8 := (by decide +kernel : ∀ t : Fin grid0.N, win0_6.xsize (grid0.coords t) 0 = 8) t
  funext y
  rw [View.read_apply]
  show (dats m 0 c).after 6 t ((cfg0.win 6).xinj (grid0.coords t) y) = coreW m c ((win0_6.index t 0 * 8 + 1 * (y 0).val) / 8)
  rw [after0_6, wOut_entry m c t h31, wAt_last m c t h31, hi]
  have hy : (y 0).val < 8 := lt_of_lt_of_eq (y 0).isLt hx
  congr 1
  omega

end Cert.KernelIdeal.Arrays

end
-- ==== Proof.KValue.lean ====
/-
  The kernel program's result.

  After the region the program takes entry (0, 0) and entry (8, 0) of each result array — core 0's and core 1's
  totals —, adds each pair, and divides the loss sum by the larger of the weight sum and 1. The two cores' runs are the
  first and the second 32 blocks of 2048 rows, so the pair sums are the totals over all 131072 rows, and the result is
  the specification's loss of the five arrays the region finds.
-/
import proofs.«407088_j81767587381279_3_alg».proof.Proof.Gen.KernelIdeal.Frame
import proofs.«407088_j81767587381279_3_alg».proof.Proof.KArrays
import Idealize.ShloMosaic.Lib.Pipeline.Value
import Idealize.ShloMosaic.Lib.StableHlo.Run
import Idealize.ShloMosaic.Lib.ValueIdx

set_option maxRecDepth 16384

noncomputable section

namespace Cert.KernelIdeal.KValue

open Cert.KernelIdeal Cert.KernelIdeal.Gen
open Idealize.ShloMosaic Idealize.ShloMosaic.TcCoe Idealize.ShloMosaic.Tactic Idealize.ShloMosaic.ValueIdx
open Idealize.SL Idealize.SL.Sem

open Cert.Triplet Cert.KernelIdeal.Accum Cert.KernelIdeal.Arrays
open Idealize.ShloMosaic.StableHlo
open Idealize.ShloMosaic.Pipeline (Dat)

variable (m : (ℓ : Loc nD τ sig) → Buf (Elt Ideal) ℓ) (ρ : Dev nD → PrngReg)

/-! ## The lines after the region -/

/-- Entry (r, 0) of a [16, 128] array, sliced out as a [1, 1] array and cast to a scalar. -/
theorem pick (x : S16x128.Idx → EReal) (r : Fin 16) (off : Fin 2 → Nat) (h0 : off 0 = r.val) (h1 : off 1 = 0)
    (h : S16x128.Slices off S1x1) (h' : S1x1.ShapeCasts S_) (i : S_.Idx) :
    shapeCast S_ (extractStridedSlice S1x1 off x h) h' i = x (ix2 r (0 : Fin 128)) := by
  refine (shapeCast_apply _ h' i (ix2 (0 : Fin 1) (0 : Fin 1)) ?_).trans ?_
  · have hlt : (S_.rowMajor i).val < 1 := lt_of_lt_of_eq (S_.rowMajor i).isLt (by decide)
    rw [Shape.rowMajor_val_two]
    show 0 * 1 + 0 = _
    omega
  · exact extractStridedSlice_apply off x h (ix2 0 0) (ix2 r 0) fun a => by
      match a with
      | ⟨0, _⟩ => show r.val = off 0 + 0; omega
      | ⟨1, _⟩ => show 0 = off 1 + 0; omega

set_option maxHeartbeats 8000000 in
/-- The lines after the region, from any contents `W` whose two result arrays are `o5` and `o6`: the sum of the loss
    array's entries (0, 0) and (8, 0) over the larger of the weight array's same two entries' sum and 1. -/
theorem tail_of (W : Valuation τ sig (Elt Ideal)) (o5 o6 : S16x128.Idx → EReal)
    (h5 : W (Proc.devRef .tc main_v20_0) = o5) (h6 : W (Proc.devRef .tc main_v20_1) = o6) (i : S_.Idx) :
    StableHlo.after (hostOps1 (F := Ideal)) W (Proc.devRef .tc main_v32) i
      = Ideal.div (o5 (ix2 (0 : Fin 16) (0 : Fin 128)) + o5 (ix2 (8 : Fin 16) (0 : Fin 128)))
          (max (o6 (ix2 (0 : Fin 16) (0 : Fin 128)) + o6 (ix2 (8 : Fin 16) (0 : Fin 128))) (Ideal.ofBits .f32 0x3F800000#32)) := by
  after_results_simp
  rw [h5, h6]
  show Ideal.div
      (shapeCast S_ (extractStridedSlice S1x1 ![0, 0] o5 slices_S16x128_S1x1_0_0) shapeCasts_S1x1_S_ i
        + shapeCast S_ (extractStridedSlice S1x1 ![8, 0] o5 slices_S16x128_S1x1_8_0) shapeCasts_S1x1_S_ i)
      (max (shapeCast S_ (extractStridedSlice S1x1 ![0, 0] o6 slices_S16x128_S1x1_0_0) shapeCasts_S1x1_S_ i
        + shapeCast S_ (extractStridedSlice S1x1 ![8, 0] o6 slices_S16x128_S1x1_8_0) shapeCasts_S1x1_S_ i)
        (Ideal.ofBits .f32 0x3F800000#32)) = _
  rw [pick _ 0 ![0, 0] rfl rfl, pick _ 8 ![8, 0] rfl rfl, pick _ 0 ![0, 0] rfl rfl, pick _ 8 ![8, 0] rfl rfl]

/-! ## The result arrays' entries -/

/-- An entry in rows `8 k … 8 k + 7` lies in the block core `k` writes back at its last tile. -/
theorem mem_blk_loss (t : Fin cfg0.N) (i : S16x128.Idx) (h : (i 0).val / 8 = t.val / 32) : i ∈ ((cfg0.win 5).blk t).view.set := by
  have hi := (by decide +kernel : ∀ t : Fin grid0.N, win0_5.index t 0 = t.val / 32 ∧ win0_5.index t 1 = 0
    ∧ win0_5.xsize (grid0.coords t) 0 = 8 ∧ win0_5.xsize (grid0.coords t) 1 = 128) t
  show i ∈ ((View.whole main_v20_0).slice (win0_5.rect t)).set
  rw [View.set_slice_whole, Rect.mem_set_unit]
  intro a
  have h1 : (i 1).val < 128 := (i 1).isLt
  match a with
  | ⟨0, _⟩ =>
    show win0_5.index t 0 * 8 ≤ (i 0 : Nat) ∧ (i 0 : Nat) < win0_5.index t 0 * 8 + win0_5.xsize (grid0.coords t) 0
    rw [hi.1, hi.2.2.1]; omega
  | ⟨1, _⟩ =>
    show win0_5.index t 1 * 128 ≤ (i 1 : Nat) ∧ (i 1 : Nat) < win0_5.index t 1 * 128 + win0_5.xsize (grid0.coords t) 1
    rw [hi.2.1, hi.2.2.2]; omega

theorem mem_blk_w (t : Fin cfg0.N) (i : S16x128.Idx) (h : (i 0).val / 8 = t.val / 32) : i ∈ ((cfg0.win 6).blk t).view.set := by
  have hi := (by decide +kernel : ∀ t : Fin grid0.N, win0_6.index t 0 = t.val / 32 ∧ win0_6.index t 1 = 0
    ∧ win0_6.xsize (grid0.coords t) 0 = 8 ∧ win0_6.xsize (grid0.coords t) 1 = 128) t
  show i ∈ ((View.whole main_v20_1).slice (win0_6.rect t)).set
  rw [View.set_slice_whole, Rect.mem_set_unit]
  intro a
  have h1 : (i 1).val < 128 := (i 1).isLt
  match a with
  | ⟨0, _⟩ =>
    show win0_6.index t 0 * 8 ≤ (i 0 : Nat) ∧ (i 0 : Nat) < win0_6.index t 0 * 8 + win0_6.xsize (grid0.coords t) 0
    rw [hi.1, hi.2.2.1]; omega
  | ⟨1, _⟩ =>
    show win0_6.index t 1 * 128 ≤ (i 1 : Nat) ∧ (i 1 : Nat) < win0_6.index t 1 * 128 + win0_6.xsize (grid0.coords t) 1
    rw [hi.2.1, hi.2.2.2]; omega

/-- Core `k`'s last point. -/
def lastPt (k : Fin 2) : Fin cfg0.N := ⟨32 * k.val + 31, by rw [show cfg0.N = 64 from N_0]; omega⟩

/-- The two result arrays after the region, by their literal type. -/
abbrev lossArrAfter (c : Dev nD) : S16x128.Idx → EReal := (dats m 0 c).arrAt 5 cfg0.N
abbrev wArrAfter (c : Dev nD) : S16x128.Idx → EReal := (dats m 0 c).arrAt 6 cfg0.N

set_option maxHeartbeats 4000000 in
/-- An entry under a block that was written back holds that block's contents. -/
theorem lossArr_of_mem (c : Dev nD) (t : Fin cfg0.N) (i : S16x128.Idx) (hf : (cfg0.win 5).flush t = true)
    (hi : i ∈ ((cfg0.win 5).blk t).view.set) : lossArrAfter m c i = lossOutArr m c i :=
  (dats m 0 c).arrAt_apply_of_mem 5 (lossOutArr m c) (flushed_loss m c) cfg0.N t i t.isLt hf hi

set_option maxHeartbeats 4000000 in
theorem wArr_of_mem (c : Dev nD) (t : Fin cfg0.N) (i : S16x128.Idx) (hf : (cfg0.win 6).flush t = true)
    (hi : i ∈ ((cfg0.win 6).blk t).view.set) : wArrAfter m c i = wOutArr m c i :=
  (dats m 0 c).arrAt_apply_of_mem 6 (wOutArr m c) (flushed_w m c) cfg0.N t i t.isLt hf hi

/-- After the region, entry (8 k, 0) of the loss array is core `k`'s loss total, and of the weight array its weight total. -/
theorem loss_entry (c : Dev nD) (k : Fin 2) (r : Fin 16) (hr : r.val = 8 * k.val) :
    lossArrAfter m c (ix2 r (0 : Fin 128)) = coreLoss m c k.val := by
  have hf : (cfg0.win 5).flush (lastPt k) = true := (flush0_5 (lastPt k)).mpr (by show (32 * k.val + 31) % 32 = 31; omega)
  refine (lossArr_of_mem m c (lastPt k) (ix2 r 0) hf
    (mem_blk_loss (lastPt k) (ix2 r 0) (by show r.val / 8 = (32 * k.val + 31) / 32; omega))).trans ?_
  show coreLoss m c (r.val / 8) = _
  congr 1; omega

theorem w_entry (c : Dev nD) (k : Fin 2) (r : Fin 16) (hr : r.val = 8 * k.val) :
    wArrAfter m c (ix2 r (0 : Fin 128)) = coreW m c k.val := by
  have hf : (cfg0.win 6).flush (lastPt k) = true := (flush0_6 (lastPt k)).mpr (by show (32 * k.val + 31) % 32 = 31; omega)
  refine (wArr_of_mem m c (lastPt k) (ix2 r 0) hf
    (mem_blk_w (lastPt k) (ix2 r 0) (by show r.val / 8 = (32 * k.val + 31) / 32; omega))).trans ?_
  show coreW m c (r.val / 8) = _
  congr 1; omega

/-! ## The two cores' totals are the totals over all rows -/

theorem tileLossN_eq (c : Dev nD) (n : ℕ) (hn : n < 64) :
    tileLossN m c n = ∑ q : Fin 2048, onNat (rowTerm m c) (n * 2048 + q.val) := by
  have h : n < cfg0.N := by rw [show cfg0.N = 64 from N_0]; exact hn
  unfold tileLossN; rw [dif_pos h]; exact tileLoss_eq m c ⟨n, h⟩

theorem tileWN_eq (c : Dev nD) (n : ℕ) (hn : n < 64) :
    tileWN m c n = ∑ q : Fin 2048, onNat (wOf m c) (n * 2048 + q.val) := by
  have h : n < cfg0.N := by rw [show cfg0.N = 64 from N_0]; exact hn
  unfold tileWN; rw [dif_pos h]; exact tileW_eq m c ⟨n, h⟩

theorem loss_total (c : Dev nD) : coreLoss m c 0 + coreLoss m c 1 = ∑ r : Fin 131072, rowTerm m c r := by
  rw [show (∑ r : Fin 131072, rowTerm m c r) = ∑ r : Fin 131072, onNat (rowTerm m c) r.val from
      Finset.sum_congr rfl fun r _ => (onNat_val (rowTerm m c) r).symm, total_eq_halves]
  unfold coreLoss
  refine congrArg₂ (· + ·) ?_ ?_
  · refine Finset.sum_congr rfl fun s hs => ?_
    have hs' : s < 32 := Finset.mem_range.mp hs
    rw [tileLossN_eq m c (32 * 0 + s) (by omega), show 32 * 0 + s = s from by omega]
  · refine Finset.sum_congr rfl fun s hs => ?_
    have hs' : s < 32 := Finset.mem_range.mp hs
    rw [tileLossN_eq m c (32 * 1 + s) (by omega), show 32 * 1 + s = 32 + s from by omega]

theorem w_total (c : Dev nD) : coreW m c 0 + coreW m c 1 = ∑ r : Fin 131072, wOf m c r := by
  rw [show (∑ r : Fin 131072, wOf m c r) = ∑ r : Fin 131072, onNat (wOf m c) r.val from
      Finset.sum_congr rfl fun r _ => (onNat_val (wOf m c) r).symm, total_eq_halves]
  unfold coreW
  refine congrArg₂ (· + ·) ?_ ?_
  · refine Finset.sum_congr rfl fun s hs => ?_
    have hs' : s < 32 := Finset.mem_range.mp hs
    rw [tileWN_eq m c (32 * 0 + s) (by omega), show 32 * 0 + s = s from by omega]
  · refine Finset.sum_congr rfl fun s hs => ?_
    have hs' : s < 32 := Finset.mem_range.mp hs
    rw [tileWN_eq m c (32 * 1 + s) (by omega), show 32 * 1 + s = 32 + s from by omega]

/-! ## The program's result, and its run -/

/-- The result the program ends with: the specification's loss of the arrays the region finds. -/
def resultOf (c : Dev nD) : Buf (Elt Ideal) ((c : Thread nD τ).loc main_v32) :=
  fun _ => result (aArr m c) (pArr m c) (nArr m c) (mgOf m c) (wOf m c)

set_option maxHeartbeats 8000000 in
theorem result_eq (c : Dev nD) :
    Pipeline.afterTail₀ cfgs (dats m) 0 (V0 m) [hostOps1] c main_v32 = resultOf m c := by
  funext i
  unfold Pipeline.afterTail₀
  rw [show ([hostOps1] : List (List (HloOp τ sig (Elt Ideal)))).flatten = hostOps1 from by
    simp only [List.flatten_cons, List.flatten_nil, List.append_nil]]
  refine (tail_of _ (lossArrAfter m c) (wArrAfter m c) (Pipeline.withArrays_arr spec0 launch0.win.arr_inj c _ _ 5)
    (Pipeline.withArrays_arr spec0 launch0.win.arr_inj c _ _ 6) i).trans ?_
  rw [loss_entry m c 0 0 rfl, loss_entry m c 1 8 rfl, w_entry m c 0 0 rfl, w_entry m c 1 8 rfl]
  show Ideal.div (coreLoss m c 0 + coreLoss m c 1) (max (coreW m c 0 + coreW m c 1) _) = _
  rw [loss_total, w_total]
  rfl

/-- Every weakly fair execution of the program terminates with the result at the specification's loss of the arrays the
    region finds, and the six arguments unchanged. -/
theorem run : θ_run defs (onTc (τ := τ) (main (F := Ideal))) ⟨m, fun _ => 0, ρ⟩ (fun r => ∀ c : Dev nD,
      r.2.mem ((c.tc : Thread nD τ).loc main_v32) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v32 (Pipeline.mem_restRefs_of main_v32 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KValue

end
-- ==== Proof.LibReduceAllOnes.lean ====
/-
  A host `reduce` by `and` over one-bit words that are all 1, from an initial 1, is 1 — the converse of reading a
  `jnp.all` back (there: the result is 1, so every element was). The reduce at a result index is a left fold by `and`,
  from the initial value's element, over the operand indices that reduce into it; a fold by `and` that starts at 1 and
  meets only 1s ends at 1.
-/
import Idealize.ShloMosaic.Lib.ReduceAll

namespace Idealize.ShloMosaic

namespace IntOp

/-- A left fold by `and` over one-bit words that starts at 1 and meets only 1s ends at 1. -/
theorem foldl_andi_of_all {ι : Type} (f : ι → BitVec 1) :
    ∀ (l : List ι) (init : BitVec 1), init = 1#1 → (∀ n ∈ l, f n = 1#1) → l.foldl (fun r n => andi r (f n)) init = 1#1
  | [], _, h, _ => h
  | a :: l, _, h, hf =>
    foldl_andi_of_all f l _ (andi_eq_one.2 ⟨h, hf a List.mem_cons_self⟩) fun n hn => hf n (List.mem_cons_of_mem _ hn)

end IntOp

namespace Host

variable {s t u : Shape} {axes : List (Fin s.rank)}

/-- A `stablehlo.reduce` by `and` of an operand that is 1 everywhere, from an initial value 1, is 1 at every result index. -/
theorem reduce_andi_of_all (x : s.Idx → BitVec 1) (init : u.Idx → BitVec 1) (h : s.ReducesTo axes t) (hu : 0 < u.numel)
    (hinit : init (Shape.Idx.first hu) = 1#1) (hx : ∀ i, x i = 1#1) (j : t.Idx) :
    Host.reduce IntOp.andi x init h hu j = 1#1 := by
  rw [Host.reduce_eq_foldl]
  exact IntOp.foldl_andi_of_all x _ _ hinit fun i _ => hx i

end Host

end Idealize.ShloMosaic
-- ==== Proof.KPrefix.lean ====
/-
  What the kernel's region finds in its operand arrays, under the precondition.

  The kernel's program makes the positive and negative rows and the negative's label with a take that checks the
  (wrapped) index against the array's bounds and fills with a not-a-number word, or the least integer, where the check
  fails; the reference indexes the arrays directly. Under the precondition every positive and negative index lies in
  `[0, 131072)`: no index is wrapped, the check holds on every row, its reduction along the unit axis is 1 on every
  row, and the select returns the gathered array. So the kernel's arrays are the reference's stages, term for term.
  The margin and weight columns are casts of vectors to one-column arrays: entry (r, 0) is the vector's entry r.
-/
import proofs.«407088_j81767587381279_3_alg».proof.Defs
import proofs.«407088_j81767587381279_3_alg».proof.Proof.Gen.KernelIdeal.Frame.Runs
import proofs.«407088_j81767587381279_3_alg».proof.Proof.Gen.ReferenceIdeal.Read
import proofs.«407088_j81767587381279_3_alg».proof.Proof.Gen.Pre_finite_inputs
import proofs.«407088_j81767587381279_3_alg».proof.Proof.LibReduceAllOnes
import proofs.«407088_j81767587381279_3_alg».proof.Proof.LibColumnLayout
import Idealize.ShloMosaic.Lib.ValueIdx
import Idealize.ShloMosaic.Lib.StableHlo.Predicate
import Idealize.ShloMosaic.Lib.StableHlo.Run
import Idealize.ShloMosaic.Lib.ReduceAll

noncomputable section

namespace Cert.KernelIdeal.Prefix

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-! ## Words: an index the precondition admits passes the take's bounds check -/

/-- A word that is at least 0 and below 131072, read signed, is not negative and is at most 131071. -/
theorem word_in_range {a : BitVec 32} (h0 : IntOp.cmpi .sge a 0#32 = 1#1) (h1 : IntOp.cmpi .slt a 131072#32 = 1#1) :
    IntOp.cmpi .slt a 0#32 = 0#1 ∧ IntOp.cmpi .sle a 131071#32 = 1#1 := by
  have e0 : (0#32 : BitVec 32).toInt = 0 := by decide
  have e1 : (131072#32 : BitVec 32).toInt = 131072 := by decide
  have e2 : (131071#32 : BitVec 32).toInt = 131071 := by decide
  rw [IntOp.cmpi_sge, e0] at h0
  rw [IntOp.cmpi_slt, e1] at h1
  refine ⟨eq_zero_of_ne_one fun h => ?_, IntOp.cmpi_sle.2 (by rw [e2]; omega)⟩
  rw [IntOp.cmpi_slt, e0] at h; omega

/-! ## The precondition read back -/

instance : Subsingleton Cert.Pre_finite_inputs.S_.Idx := ⟨fun a b => funext fun d => d.elim0⟩

/-- Under the precondition every positive index and every negative index is at least 0 and below 131072. -/
theorem pre_ranges [hP : Cert.Pre_finite_inputs.Facts] (hpre : Cert.Pre_KernelIdeal m) (c : Dev nD) :
    (∀ i : S131072.Idx, IntOp.cmpi .sge ((m ((c.tc : Thread nD τ).loc main_arg3) : IVec S131072 32) i) 0#32 = 1#1
        ∧ IntOp.cmpi .slt ((m ((c.tc : Thread nD τ).loc main_arg3) : IVec S131072 32) i) 131072#32 = 1#1)
    ∧ (∀ i : S131072.Idx, IntOp.cmpi .sge ((m ((c.tc : Thread nD τ).loc main_arg4) : IVec S131072 32) i) 0#32 = 1#1
        ∧ IntOp.cmpi .slt ((m ((c.tc : Thread nD τ).loc main_arg4) : IVec S131072 32) i) 131072#32 = 1#1) := by
  have h := congrFun (hpre c) ix0
  dsimp only [Cert.Pre_finite_inputs.fn, Cert.Pre_finite_inputs.fn_part1] at h
  obtain ⟨h', h4⟩ := IntOp.andi_eq_one.1 h
  obtain ⟨-, h3⟩ := IntOp.andi_eq_one.1 h'
  exact ⟨fun i => IntOp.andi_eq_one.1 (Host.reduce_andi_all _ _ _ _ ix0 h3 i),
    fun i => IntOp.andi_eq_one.1 (Host.reduce_andi_all _ _ _ _ ix0 h4 i)⟩

/-! ## A select under a mask that is 1 everywhere -/

/-- A select whose mask is 1 at every index is its first branch. -/
theorem select_of_all_one {s : Shape} {α : Type} (c : IVec s 1) (a b : s.Idx → α) (h : ∀ i, c i = 1#1) :
    select c a b = a :=
  funext fun i => by rw [select_apply, h i, select_one]

/-! ## The take's pieces as functions of the index vector -/

/-- The index vector with its negative entries wrapped by the array's length. -/
def wrapIdx (idx : IVec S131072 32) : IVec S131072 32 :=
  select (cmpi .slt idx (broadcastInDim S131072 ![] bcast_S_S131072 (constantI S_ 32 0#32)))
    (addi idx (broadcastInDim S131072 ![] bcast_S_S131072 (constantI S_ 32 131072#32))) idx

/-- The wrapped index vector as a column of start indices. -/
def idxCol (idx : IVec S131072 32) : IVec S131072x1 32 :=
  broadcastInDim S131072x1 ![0] bcast_S131072_S131072x1_0 (wrapIdx idx)

/-- The bounds check of a column of start indices: per row, whether the start index lies in `[0, 131071]`. -/
def inBounds (col : IVec S131072x1 32) : IVec S131072 1 :=
  Host.reduce IntOp.andi
    (andi (cmpi .sge col (broadcastInDim S131072x1 ![] bcast_S_S131072x1 (constantI S_ 32 0#32)))
      (cmpi .sle col (broadcastInDim S131072x1 ![0, 1] bcast_S1x1_S131072x1_0_1
        (broadcastInDim S1x1 ![1] bcast_S1_S1x1_1 (constantI S1 32 131071#32)))))
    (constantI S_ 1 1#1) reducesTo_S131072x1_S131072_d1 h_S_

/-- The column of start indices at row `r` is the wrapped index of row `r`. -/
theorem idxCol_apply (idx : IVec S131072 32) (r : Fin 131072) (u : Fin 1) : idxCol idx (ix2 r u) = wrapIdx idx (ix1 r) := by
  unfold idxCol
  exact broadcastInDim_apply _ bcast_S131072_S131072x1_0 (wrapIdx idx) (ix2 r u) (ix1 r) (fun a => match a with
    | ⟨0, _⟩ => by show r.val = if (131072 : Nat) = 1 then 0 else r.val; rw [if_neg (by decide)])

/-- An index that is not negative is not wrapped. -/
theorem wrapIdx_apply (idx : IVec S131072 32) (i : S131072.Idx) (h : IntOp.cmpi .slt (idx i) 0#32 = 0#1) :
    wrapIdx idx i = idx i := by
  show Scalar.select (IntOp.cmpi .slt (idx i) 0#32) (IntOp.addi (idx i) 131072#32) (idx i) = idx i
  rw [h, select_zero]

/-- When every index is at least 0 and below 131072, the bounds check holds on every row. -/
theorem inBounds_idxCol (idx : IVec S131072 32)
    (h : ∀ i : S131072.Idx, IntOp.cmpi .sge (idx i) 0#32 = 1#1 ∧ IntOp.cmpi .slt (idx i) 131072#32 = 1#1) (j : S131072.Idx) :
    inBounds (idxCol idx) j = 1#1 := by
  unfold inBounds
  refine Host.reduce_andi_of_all _ _ _ _ rfl (fun i => ?_) j
  obtain ⟨p, q, rfl⟩ : ∃ (p : Fin 131072) (q : Fin 1), i = ix2 p q := ⟨i 0, i 1, eq_ix2 i⟩
  obtain ⟨hlt, hle⟩ := word_in_range (h (ix1 p)).1 (h (ix1 p)).2
  have hc : idxCol idx (ix2 p q) = idx (ix1 p) := (idxCol_apply idx p q).trans (wrapIdx_apply idx (ix1 p) hlt)
  refine IntOp.andi_eq_one.2 ⟨?_, ?_⟩
  · show IntOp.cmpi .sge (idxCol idx (ix2 p q)) 0#32 = 1#1
    rw [hc]; exact (h (ix1 p)).1
  · show IntOp.cmpi .sle (idxCol idx (ix2 p q)) 131071#32 = 1#1
    rw [hc]; exact hle

/-- The take of rows: the gathered rows where the bounds check holds, the not-a-number word elsewhere. -/
def takeRows (x : FVec Ideal S131072x256 .f32) (idx : IVec S131072 32) : FVec Ideal S131072x256 .f32 :=
  select (broadcastInDim S131072x256 ![0] bcast_S131072_S131072x256_0 (inBounds (idxCol idx)))
    (Host.gather gather_S131072x256_S131072x1_S131072x256_1_0_n_n_0_1_1256 x (idxCol idx))
    (broadcastInDim S131072x256 ![] bcast_S_S131072x256 (constant (F := Ideal) S_ .f32 0x7FC00000#32))

/-- The take of labels: the gathered labels where the bounds check holds, the least integer elsewhere. -/
def takeLabel (x : IVec S131072 32) (idx : IVec S131072 32) : IVec S131072 32 :=
  select (inBounds (idxCol idx))
    (Host.gather gather_S131072_S131072x1_S131072_n_0_n_n_0_1_1 x (idxCol idx))
    (broadcastInDim S131072 ![] bcast_S_S131072 (constantI S_ 32 2147483648#32))

/-- When every index is at least 0 and below 131072, the take of rows is the gather. -/
theorem takeRows_eq (x : FVec Ideal S131072x256 .f32) (idx : IVec S131072 32)
    (h : ∀ i : S131072.Idx, IntOp.cmpi .sge (idx i) 0#32 = 1#1 ∧ IntOp.cmpi .slt (idx i) 131072#32 = 1#1) :
    takeRows x idx = Host.gather gather_S131072x256_S131072x1_S131072x256_1_0_n_n_0_1_1256 x (idxCol idx) := by
  unfold takeRows
  refine select_of_all_one _ _ _ fun j => ?_
  obtain ⟨p, q, rfl⟩ : ∃ (p : Fin 131072) (q : Fin 256), j = ix2 p q := ⟨j 0, j 1, eq_ix2 j⟩
  refine (broadcastInDim_apply _ bcast_S131072_S131072x256_0 (inBounds (idxCol idx)) (ix2 p q) (ix1 p) (fun a => match a with
    | ⟨0, _⟩ => by show p.val = if (131072 : Nat) = 1 then 0 else p.val; rw [if_neg (by decide)])).trans ?_
  exact inBounds_idxCol idx h (ix1 p)

/-- When every index is at least 0 and below 131072, the take of labels is the gather. -/
theorem takeLabel_eq (x : IVec S131072 32) (idx : IVec S131072 32)
    (h : ∀ i : S131072.Idx, IntOp.cmpi .sge (idx i) 0#32 = 1#1 ∧ IntOp.cmpi .slt (idx i) 131072#32 = 1#1) :
    takeLabel x idx = Host.gather gather_S131072_S131072x1_S131072_n_0_n_n_0_1_1 x (idxCol idx) := by
  unfold takeLabel
  exact select_of_all_one _ _ _ fun j => inBounds_idxCol idx h j

/-! ## The margin's pieces as functions -/

/-- A label vector with its negative entries wrapped by the table's side. -/
def wrap100 (lab : IVec S131072 32) : IVec S131072 32 :=
  select (cmpi .slt lab (broadcastInDim S131072 ![] bcast_S_S131072 (constantI S_ 32 0#32)))
    (addi lab (broadcastInDim S131072 ![] bcast_S_S131072 (constantI S_ 32 100#32))) lab

/-- The margin table read at the pairs (label of the row, label of the row's negative). -/
def marginOf (x1 : FVec Ideal S100x100 .f32) (a b : IVec S131072 32) : FVec Ideal S131072 .f32 :=
  Host.gather gather_S100x100_S131072x2_S131072_n_01_n_n_01_1_11 x1
    (concatenate S131072x2 1
      [⟨S131072x1, broadcastInDim S131072x1 ![0] bcast_S131072_S131072x1_0 (wrap100 a)⟩,
       ⟨S131072x1, broadcastInDim S131072x1 ![0] bcast_S131072_S131072x1_0 (wrap100 b)⟩]
      concatenates_S131072x1_S131072x1_S131072x2_d1 : IVec S131072x2 32)

/-! ## What the host operations before the region leave in the region's operands -/

section Operands
open Idealize.ShloMosaic.StableHlo

attribute [local irreducible] Host.reduce Host.gather concatenate in
set_option maxRecDepth 65536 in
set_option maxHeartbeats 40000000 in
/-- The positive rows are the take of the embeddings at the positive indices. -/
theorem V_main_v0_eq (c : Dev nD) :
    (V m c main_v0 : S131072x256.Idx → EReal)
      = takeRows (m ((c.tc : Thread nD τ).loc main_arg0)) (m ((c.tc : Thread nD τ).loc main_arg3)) := by
  dsimp only [Gen.V, Gen.V0]
  simp only [Gen.hostOps0, Gen.hostOps0_1, Gen.hostOps0_2, Gen.hostOps0_3, List.flatten_cons, List.flatten_nil, List.append_nil,
    List.cons_append, List.nil_append]
  after_results_simp
  rfl

attribute [local irreducible] Host.reduce Host.gather concatenate in
set_option maxRecDepth 65536 in
set_option maxHeartbeats 40000000 in
/-- The negative rows are the take of the embeddings at the negative indices. -/
theorem V_main_v1_eq (c : Dev nD) :
    (V m c main_v1 : S131072x256.Idx → EReal)
      = takeRows (m ((c.tc : Thread nD τ).loc main_arg0)) (m ((c.tc : Thread nD τ).loc main_arg4)) := by
  dsimp only [Gen.V, Gen.V0]
  simp only [Gen.hostOps0, Gen.hostOps0_1, Gen.hostOps0_2, Gen.hostOps0_3, List.flatten_cons, List.flatten_nil, List.append_nil,
    List.cons_append, List.nil_append]
  after_results_simp
  rfl

attribute [local irreducible] Host.reduce Host.gather concatenate in
set_option maxRecDepth 65536 in
set_option maxHeartbeats 40000000 in
/-- The margin column is the margin table read at (label, negative's label), the negative's label a take, as a column. -/
theorem V_main_v18_eq (c : Dev nD) :
    (V m c main_v18 : S131072x1.Idx → EReal)
      = shapeCast S131072x1 (marginOf (m ((c.tc : Thread nD τ).loc main_arg1)) (m ((c.tc : Thread nD τ).loc main_arg2))
          (takeLabel (m ((c.tc : Thread nD τ).loc main_arg2)) (m ((c.tc : Thread nD τ).loc main_arg4)))) shapeCasts_S131072_S131072x1 := by
  dsimp only [Gen.V, Gen.V0]
  simp only [Gen.hostOps0, Gen.hostOps0_1, Gen.hostOps0_2, Gen.hostOps0_3, List.flatten_cons, List.flatten_nil, List.append_nil,
    List.cons_append, List.nil_append]
  after_results_simp
  rfl

attribute [local irreducible] Host.reduce Host.gather concatenate in
set_option maxRecDepth 65536 in
set_option maxHeartbeats 40000000 in
/-- The weight column is the validity bits converted to floats, as a column. -/
theorem V_main_v19_eq (c : Dev nD) :
    (V m c main_v19 : S131072x1.Idx → EReal)
      = shapeCast S131072x1 (uitofp (F := Ideal) .f32 (m ((c.tc : Thread nD τ).loc main_arg5) : IVec S131072 1)) shapeCasts_S131072_S131072x1 := by
  dsimp only [Gen.V, Gen.V0]
  simp only [Gen.hostOps0, Gen.hostOps0_1, Gen.hostOps0_2, Gen.hostOps0_3, List.flatten_cons, List.flatten_nil, List.append_nil,
    List.cons_append, List.nil_append]
  after_results_simp
  rfl

end Operands

/-! ## The interface -/

/-- The positive rows the region finds are the reference's gathered positive rows. -/
theorem V_pos [hP : Cert.Pre_finite_inputs.Facts] (hpre : Cert.Pre_KernelIdeal m) (c : Dev nD) :
    V m c main_v0 = Cert.ReferenceIdeal.Read.val_main_v6 (F := Ideal)
      (m ((c.tc : Thread nD τ).loc main_arg0)) (m ((c.tc : Thread nD τ).loc main_arg3)) := by
  refine (V_main_v0_eq m c).trans ((takeRows_eq _ _ (pre_ranges m hpre c).1).trans ?_)
  rfl

/-- The negative rows the region finds are the reference's gathered negative rows. -/
theorem V_neg [hP : Cert.Pre_finite_inputs.Facts] (hpre : Cert.Pre_KernelIdeal m) (c : Dev nD) :
    V m c main_v1 = Cert.ReferenceIdeal.Read.val_main_v13 (F := Ideal)
      (m ((c.tc : Thread nD τ).loc main_arg0)) (m ((c.tc : Thread nD τ).loc main_arg4)) := by
  refine (V_main_v1_eq m c).trans ((takeRows_eq _ _ (pre_ranges m hpre c).2).trans ?_)
  rfl

/-- The margin column the region finds holds, for row `r`, the reference's gathered margin of row `r`. -/
theorem V_margin_apply [hP : Cert.Pre_finite_inputs.Facts] (hpre : Cert.Pre_KernelIdeal m) (c : Dev nD) (r : Fin 131072) :
    V m c main_v18 (ix2 r (0 : Fin 1)) = Cert.ReferenceIdeal.Read.val_main_v34 (F := Ideal)
      (m ((c.tc : Thread nD τ).loc main_arg1)) (m ((c.tc : Thread nD τ).loc main_arg2)) (m ((c.tc : Thread nD τ).loc main_arg4)) (ix1 r) := by
  refine (congrFun (V_main_v18_eq m c) (ix2 r (0 : Fin 1))).trans ?_
  rw [takeLabel_eq _ _ (pre_ranges m hpre c).2]
  refine (shapeCast_a_a1_apply _ _ r 0).trans ?_
  rfl

/-- The weight column the region finds holds, for row `r`, the reference's weight of row `r`. -/
theorem V_weight_apply (c : Dev nD) (r : Fin 131072) :
    V m c main_v19 (ix2 r (0 : Fin 1)) = Cert.ReferenceIdeal.Read.val_main_v47 (F := Ideal)
      (m ((c.tc : Thread nD τ).loc main_arg5)) (ix1 r) := by
  refine (congrFun (V_main_v19_eq m c) (ix2 r (0 : Fin 1))).trans ?_
  refine (shapeCast_a_a1_apply _ _ r 0).trans ?_
  rfl

end Cert.KernelIdeal.Prefix
end
-- ==== Proof.RefValue.lean ====
/-
  The reference's result is the triplet loss of the specification: of the embeddings, the gathered positive and
  negative rows, the gathered margins and the weights.
-/
import proofs.«407088_j81767587381279_3_alg».proof.Proof.Gen.ReferenceIdeal.Read
import proofs.«407088_j81767587381279_3_alg».proof.Proof.Spec
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx
open scoped BigOperators

/-- The index a row sum reads at row `r` and column `k` is the pair `(r, k)`. -/
theorem idx37_eq (r : Fin 131072) (k : Fin 256) : idx_main_v37 (ix1 r) k = ix2 r k :=
  funext fun a => Fin.ext (by match a with | ⟨0, _⟩ => rfl | ⟨1, _⟩ => rfl)

/-- The same for the second row sum. -/
theorem idx41_eq (r : Fin 131072) (k : Fin 256) : idx_main_v41 (ix1 r) k = ix2 r k :=
  funext fun a => Fin.ext (by match a with | ⟨0, _⟩ => rfl | ⟨1, _⟩ => rfl)

/-- The first row sum is the squared distance between row `r` of the embeddings and row `r` of the gathered
    positives: the initial value is the word of 0.0, which is 0, and each summand is a squared difference. -/
theorem v37_eq (x0 : FVec Ideal S131072x256 .f32) (x3 : IVec S131072 32) (r : Fin 131072) :
    val_main_v37 (F := Ideal) x0 x3 (ix1 r) = Cert.Triplet.sqDist x0 (val_main_v6 (F := Ideal) x0 x3) r := by
  rw [val_main_v37_apply, val_main_cst_apply, Ideal.ofBits_def, Ideal.ofBits_zero_f32, zero_add]
  unfold Cert.Triplet.sqDist
  refine Finset.sum_congr rfl fun k _ => ?_
  rw [idx37_eq, val_main_v36_apply, val_main_v35_apply, Ideal.mulf_def, Ideal.subf_def]

/-- The second row sum is the squared distance to the gathered negatives. -/
theorem v41_eq (x0 : FVec Ideal S131072x256 .f32) (x4 : IVec S131072 32) (r : Fin 131072) :
    val_main_v41 (F := Ideal) x0 x4 (ix1 r) = Cert.Triplet.sqDist x0 (val_main_v13 (F := Ideal) x0 x4) r := by
  rw [val_main_v41_apply, val_main_cst_9_apply, Ideal.ofBits_def, Ideal.ofBits_zero_f32, zero_add]
  unfold Cert.Triplet.sqDist
  refine Finset.sum_congr rfl fun k _ => ?_
  rw [idx41_eq, val_main_v40_apply, val_main_v39_apply, Ideal.mulf_def, Ideal.subf_def]

/-- Row `r` of the clamped stage is the specification's row loss. -/
theorem v46_eq (x0 : FVec Ideal S131072x256 .f32) (x1 : FVec Ideal S100x100 .f32) (x2 x3 x4 : IVec S131072 32)
    (r : Fin 131072) :
    val_main_v46 (F := Ideal) x0 x1 x2 x3 x4 (ix1 r)
      = Cert.Triplet.rowLoss x0 (val_main_v6 (F := Ideal) x0 x3) (val_main_v13 (F := Ideal) x0 x4)
          (fun r : Fin 131072 => val_main_v34 (F := Ideal) x1 x2 x4 (ix1 r)) r := by
  rw [val_main_v46_apply, val_main_v44_apply, val_main_v43_apply, val_main_v38_apply, val_main_v42_apply,
    val_main_v45_apply, val_main_cst_10_apply, v37_eq, v41_eq, Ideal.maximumf_def, Ideal.addf_def, Ideal.subf_def,
    Ideal.hostUnary_sqrt_def, Ideal.hostUnary_sqrt_def, Ideal.ofBits_def, Ideal.ofBits_zero_f32]
  rfl

/-- Row `r` of the weighted stage is the specification's weighted row loss. -/
theorem v48_eq (x0 : FVec Ideal S131072x256 .f32) (x1 : FVec Ideal S100x100 .f32) (x2 x3 x4 : IVec S131072 32)
    (x5 : IVec S131072 1) (r : Fin 131072) :
    val_main_v48 (F := Ideal) x0 x1 x2 x3 x4 x5 (ix1 r)
      = Cert.Triplet.weighted x0 (val_main_v6 (F := Ideal) x0 x3) (val_main_v13 (F := Ideal) x0 x4)
          (fun r : Fin 131072 => val_main_v34 (F := Ideal) x1 x2 x4 (ix1 r))
          (fun r : Fin 131072 => val_main_v47 (F := Ideal) x5 (ix1 r)) r := by
  rw [val_main_v48_apply, v46_eq, Ideal.mulf_def]
  rfl

/-- The rank-1 index set of the batch is its one coordinate's range: a row `r` is the index `ix1 r`. -/
def rowEquiv : Fin 131072 ≃ S131072.Idx where
  toFun r := ix1 r
  invFun j := j 0
  left_inv _ := rfl
  right_inv j := (eq_ix1 j).symm

/-- So a sum over the batch's index set is the sum over the rows. -/
theorem sum_rows (f : S131072.Idx → EReal) : ∑ j : S131072.Idx, f j = ∑ r : Fin 131072, f (ix1 r) :=
  (Equiv.sum_comp rowEquiv f).symm

/-- The reference's last stage, read at its one index, is the specification's loss of the embeddings `x0`, the two
    gathered row arrays, the gathered margins and the weights. -/
theorem ref_eq (x0 : FVec Ideal S131072x256 .f32) (x1 : FVec Ideal S100x100 .f32) (x2 x3 x4 : IVec S131072 32)
    (x5 : IVec S131072 1) (i : S_.Idx) :
    val_main_v52 (F := Ideal) x0 x1 x2 x3 x4 x5 i
      = Cert.Triplet.result x0 (val_main_v6 (F := Ideal) x0 x3) (val_main_v13 (F := Ideal) x0 x4)
          (fun r : Fin 131072 => val_main_v34 (F := Ideal) x1 x2 x4 (ix1 r))
          (fun r : Fin 131072 => val_main_v47 (F := Ideal) x5 (ix1 r)) := by
  rw [val_main_v52_apply, val_main_v51_apply, val_main_v49_apply, val_main_v50_apply, val_main_cst_11_apply,
    val_main_cst_12_apply, val_main_cst_13_apply, Ideal.hostDivf_def, Ideal.maximumf_def, Ideal.ofBits_def,
    Ideal.ofBits_def, Ideal.ofBits_zero_f32, zero_add, zero_add, sum_rows, sum_rows,
    Finset.sum_congr rfl fun r _ => v48_eq x0 x1 x2 x3 x4 x5 r]
  rfl

end Cert.ReferenceIdeal.RefValue

end
-- ==== Proof.lean ====
/-
  The sampled triplet margin loss: a Pallas kernel against its jnp reference, over the extended reals.

  Both programs compute, for 131072 anchor rows of 256 entries, the row loss
  `max (‖a − p‖ − ‖a − n‖ + margin) 0` against a gathered positive row `p` and negative row `n`, and return the
  weighted total of the row losses over `max (Σ w) 1`. The kernel's program gathers the rows and margins on the host,
  then runs one pallas_call on a 2 × 32 grid: core `c` streams row tiles `32 c … 32 c + 31` of 2048 rows, keeps the
  running weighted-loss and weight totals in two one-word scratch buffers (zeroed at the core's first tile), and at its
  last tile broadcasts both totals into its [8, 128] block of two [16, 128] result arrays; the host then adds the two
  cores' totals and divides. The reference sums all 131072 rows at once. Over the extended reals addition is commutative
  and associative, at the infinities too, so the two groupings of the sum are one number, and every other operation is
  the same on both sides.

  The programs differ in one place: the kernel's host code takes the positive and negative rows (and the negative's
  label) with a bounds-checked take that fills with a not-a-number word where a row index is out of range, while the
  reference indexes the array directly (the index clamped). The statement therefore carries, besides finiteness of the
  float inputs, the domain of the two index inputs: every positive and negative index lies in `[0, 131072)`. On that
  domain the check never fails and the kernel's operands are the reference's stages.

  The three frames: the two kernel programs' are the generated frame certificates; the reference's is its generated run
  with the result dropped. The idealization rewrote nothing, so `preserves` is trivial.
-/
import proofs.«407088_j81767587381279_3_alg».proof.Defs
import proofs.«407088_j81767587381279_3_alg».proof.Proof.Gen.Kernel
import proofs.«407088_j81767587381279_3_alg».proof.Proof.Gen.Kernel.Skeleton
import proofs.«407088_j81767587381279_3_alg».proof.Proof.Gen.Kernel.Launch
import proofs.«407088_j81767587381279_3_alg».proof.Proof.Gen.Kernel.Points
import proofs.«407088_j81767587381279_3_alg».proof.Proof.Gen.Kernel.Frame
import proofs.«407088_j81767587381279_3_alg».proof.Proof.Gen.KernelIdeal
import proofs.«407088_j81767587381279_3_alg».proof.Proof.Gen.KernelIdeal.Skeleton
import proofs.«407088_j81767587381279_3_alg».proof.Proof.Gen.KernelIdeal.Launch
import proofs.«407088_j81767587381279_3_alg».proof.Proof.Gen.KernelIdeal.Points
import proofs.«407088_j81767587381279_3_alg».proof.Proof.Gen.KernelIdeal.Frame
import proofs.«407088_j81767587381279_3_alg».proof.Proof.Gen.ReferenceIdeal
import proofs.«407088_j81767587381279_3_alg».proof.Proof.Gen.Pre_finite_inputs
import proofs.«407088_j81767587381279_3_alg».proof.Proof.Gen.ReferenceIdeal.Run
import proofs.«407088_j81767587381279_3_alg».proof.Proof.Gen.ReferenceIdeal.Read
import proofs.«407088_j81767587381279_3_alg».proof.Proof.KValue
import proofs.«407088_j81767587381279_3_alg».proof.Proof.KPrefix
import proofs.«407088_j81767587381279_3_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The kernel's run ends at the specification's loss of the arrays its region finds; under the precondition those are
    the embeddings and the reference's gathered stages; the reference's run ends at the specification's loss of the
    same arrays. -/
theorem algebraic : Cert.algebraic_KernelIdeal_ReferenceIdeal := by
  intro m ρ m' ρ' hpre hagree
  refine ⟨fun c => Cert.KernelIdeal.KValue.resultOf m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v52_eq, (hagree c).1, (hagree c).2.1, (hagree c).2.2.1, (hagree c).2.2.2.1,
    (hagree c).2.2.2.2.1, (hagree c).2.2.2.2.2]
  funext i
  rw [Cert.ReferenceIdeal.RefValue.ref_eq]
  have e0 : Cert.KernelIdeal.Accum.aArr m c = m ((c.tc : Thread Cert.KernelIdeal.nD Cert.KernelIdeal.τ).loc Cert.KernelIdeal.main_arg0) :=
    Cert.KernelIdeal.Gen.V_main_arg0 m c
  have e1 := Cert.KernelIdeal.Prefix.V_pos m hpre c
  have e2 := Cert.KernelIdeal.Prefix.V_neg m hpre c
  have e3 : Cert.KernelIdeal.Accum.mgOf m c = fun r : Fin 131072 => Cert.ReferenceIdeal.Read.val_main_v34 (F := Ideal)
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg4)) (ix1 r) :=
    funext fun r => Cert.KernelIdeal.Prefix.V_margin_apply m hpre c r
  have e4 : Cert.KernelIdeal.Accum.wOf m c = fun r : Fin 131072 => Cert.ReferenceIdeal.Read.val_main_v47 (F := Ideal)
      (m ((c.tc : Thread Cert.KernelIdeal.nD Cert.KernelIdeal.τ).loc Cert.KernelIdeal.main_arg5)) (ix1 r) :=
    funext fun r => Cert.KernelIdeal.Prefix.V_weight_apply m c r
  show _ = Cert.Triplet.result (Cert.KernelIdeal.Accum.aArr m c) (Cert.KernelIdeal.Accum.pArr m c) (Cert.KernelIdeal.Accum.nArr m c)
    (Cert.KernelIdeal.Accum.mgOf m c) (Cert.KernelIdeal.Accum.wOf m c)
  rw [e0, e3, e4, show Cert.KernelIdeal.Accum.pArr m c = _ from e1, show Cert.KernelIdeal.Accum.nArr m c = _ from e2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
